-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel

variable [Facts]

def fn {F : FTy → Type} [FloatOps F] (main_arg0 : FVec F S8x4096x128 .f32) (main_arg1 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x128 : Shape := ⟨3, ![8, 4096, 128]⟩
abbrev S8x4096 : Shape := ⟨2, ![8, 4096]⟩
abbrev S8x1024x128 : Shape := ⟨3, ![8, 1024, 128]⟩
abbrev S8x128x128 : Shape := ⟨3, ![8, 128, 128]⟩
abbrev S8x1024 : Shape := ⟨2, ![8, 1024]⟩
abbrev S8x128 : Shape := ⟨2, ![8, 128]⟩
abbrev S8x1024x1 : Shape := ⟨3, ![8, 1024, 1]⟩
abbrev S8x1x128 : Shape := ⟨3, ![8, 1, 128]⟩
abbrev S_ : Shape := ⟨0, ![]⟩
abbrev S8 : Shape := ⟨1, ![8]⟩

abbrev nBuf : Space → Nat
  | .hbm => 18
  | .vmem => 14
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .local _ .vmem, ⟨0, _⟩ => ⟨S8x1024x128, .f32⟩
  | .local _ .vmem, ⟨1, _⟩ => ⟨S8x1024x128, .f32⟩
  | .local _ .vmem, ⟨2, _⟩ => ⟨S8x128x128, .f32⟩
  | .local _ .vmem, ⟨3, _⟩ => ⟨S8x128x128, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024x128, .f32⟩
  | .local _ .vmem, ⟨8, _⟩ => ⟨S8x1024x128, .f32⟩
  | .local _ .vmem, ⟨9, _⟩ => ⟨S8x128x128, .f32⟩
  | .local _ .vmem, ⟨10, _⟩ => ⟨S8x128x128, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_15 : BitVec 32 := 0#32
  let v31 : BitVec 1 := Scalar.cmpi .ne v30 c0_i32_15
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 32], ![false, false]⟩

def k1_cond2 (i : grid1.Coords) : BitVec 1 :=
  let arg1 : BitVec 32 := BitVec.ofNat 32 (i 1).val
  let c31_i32 : BitVec 32 := 31#32
  let v29 : BitVec 1 := Scalar.cmpi .eq arg1 c31_i32
  let v30 : BitVec 32 := Scalar.extui v29
  let c0_i32_15 : BitVec 32 := 0#32
  let v31 : BitVec 1 := Scalar.cmpi .ne v30 c0_i32_15
  v31

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x1024x128_S8x1024x128_0_0_0 : ∀ a, (![0, 0, 0] : Fin 3 → Nat) a + S8x1024x128.size a ≤ S8x1024x128.size a
  h_S8x1024x128 : 0 < S8x1024x128.numel
  inb_S8x128x128_S8x128x128_0_0_0 : ∀ a, (![0, 0, 0] : Fin 3 → Nat) a + S8x128x128.size a ≤ S8x128x128.size a
  h_S8x128x128 : 0 < S8x128x128.numel
  reduces_S8x1024x128_S8x1024 : S8x1024x128.Reduces [2] S8x1024
  reduces_S8x128x128_S8x128 : S8x128x128.Reduces [2] S8x128
  bitsLt_bf16_f32 : FTy.bits .bf16 < FTy.bits .f32
  shapeCasts_S8x1024_S8x1024x1 : S8x1024.ShapeCasts S8x1024x1
  shapeCasts_S8x128_S8x1x128 : S8x128.ShapeCasts S8x1x128
  broadcasts_S8x1024x1_S8x1024x128 : S8x1024x1.Broadcasts S8x1024x128
  broadcasts_S8x1x128_S8x1024x128 : S8x1x128.Broadcasts S8x1024x128
  reducesTo_S8x4096_S8_d1 : S8x4096.ReducesTo [1] S8
  h_S_ : 0 < S_.numel
  bcast_S_S8 : S_.BroadcastsInDim S8 (![] : Fin 0 → Fin S8.rank)
  dot_S8x1024x128_S8x128x128_S8x1024x128_2_2_1_1_0_0_wf : DotDims.WF S8x1024x128 S8x128x128 S8x1024x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x128.size a ≤ S8x4096x128.size a
  hwx0_0 : ∀ i : grid0.Coords, EltTy.bits .f32 = 32 ∨ (Rect.block (s := S8x4096x128) S8x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S8x4096x128.size a
  hwx0_1 : ∀ i : grid0.Coords, EltTy.bits .f32 = 32 ∨ (Rect.block (s := S8x4096x128) S8x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x4096.size a
  hwx0_2 : ∀ i : grid0.Coords, EltTy.bits .f32 = 32 ∨ (Rect.block (s := S8x4096) S8x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1024x128.size a ≤ S8x4096x128.size a
  hwx1_0 : ∀ i : grid1.Coords, EltTy.bits .f32 = 32 ∨ (Rect.block (s := S8x4096x128) S8x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x128.size a ≤ S8x4096x128.size a
  hwx1_1 : ∀ i : grid1.Coords, EltTy.bits .f32 = 32 ∨ (Rect.block (s := S8x4096x128) S8x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S8x4096.size a
  hwx1_2 : ∀ i : grid1.Coords, EltTy.bits .f32 = 32 ∨ (Rect.block (s := S8x4096) S8x1024.size (cc1_transform_2 i) (hinb1_2 i)).WholeWords (EltTy.packing .f32)

variable [Facts₀]

def dot_S8x1024x128_S8x128x128_S8x1024x128_2_2_1_1_0_0 : DotDims S8x1024x128 S8x128x128 S8x1024x128 where
  lhsContracting := [2]
  rhsContracting := [2]
  lhsNonContracting := [1]
  rhsNonContracting := [1]
  lhsBatch := [0]
  rhsBatch := [0]
  wf := dot_S8x1024x128_S8x128x128_S8x1024x128_2_2_1_1_0_0_wf

abbrev win0_0 : Pipeline.Window sig grid0 :=
  Pipeline.Window.ofSpec (Memref.whole main_arg0) S8x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S8x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S_, .f32⟩
  | .hbm, ⟨4, _⟩ => ⟨S8x4096, .f32⟩
  | .hbm, ⟨5, _⟩ => ⟨S8x4096x128, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  dot_S8x4096x128_S8x4096x128_S8x4096x4096_2_2_1_1_0_0_wf : DotDims.WF S8x4096x128 S8x4096x128 S8x4096x4096 [2] [2] [1] [1] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf

class Facts : Prop extends Facts₀ where

variable [Facts]
-- ==== Proof.KbScan0.lean ====
/-
  Region 0 (the first nearest-neighbour scan: queries from the first argument, database from the second), the part
  every control case shares. The grid is 4 query tiles by 32 database tiles; point t is (t / 32, t % 32). The body
  resets its running minimum when t % 32 = 0 and copies it to the output block when t % 32 = 31; so there are three
  control cases: first database tile (A), a middle one (B), the last one (C). The output window is idle, and not
  written back, in cases A and B.
-/
import proofs.«139087_j75685913690395_1_alg».proof.Proof.Gen.Kernel.Launch
import proofs.«139087_j75685913690395_1_alg».proof.Proof.Gen.Kernel.Skeleton
import proofs.«139087_j75685913690395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The database window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two conditions, decided over the grid -/

/-- "This is the first database tile." -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last database tile." -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S8x1024 .f32 := (Memref.whole cc0_stg2_0 : Memref sig .tc .vmem S8x1024 .f32).view
abbrev ms0_0 (t : Fin cfg0.N) : Memref sig .tc .vmem S8x1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .f32 := win0_2.stage (cfg0.slots t 2)
abbrev hs0_2 (t : Fin cfg0.N) : (ms0_2 t).IsWhole := hstage0_2 ((cfg0.slots t 2).cast nbuf0_2)
/-- The running-minimum scratch, a whole scoped buffer of the kernel's own. -/
abbrev scM0_0 : Memref sig .tc .vmem S8x1024 .f32 := Memref.whole cc0_scratch0
abbrev VS0_0 : View sig .tc .vmem S8x1024 .f32 := scM0_0.view

/-- The scoped buffers that belong to the other launch, each whole at some contents: this region never looks at them. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch singled out: the scratch at some contents, the other launch's scoped
    buffers at some contents, the generator register at some state. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_eq]; simp only [scM0_0, owns_whole]; try rfl

end Cert.Kernel.Scan

end
-- ==== Proof.KbScan0A.lean ====
/-
  Region 0, case A (the first database tile of a query tile): the body resets the running minimum to +∞ and then
  lowers it by this tile's minima; the output block is not touched. The stores the run meets are its witness.
-/
import proofs.«139087_j75685913690395_1_alg».proof.Proof.KbScan0

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A on whole memrefs: the two inputs at their contents, the output's buffer handed back untouched,
    the scratch at anything; it ends with the scratch at the pieces `LS0` the run stored. -/
noncomputable def kernelRun0_A (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond0_0 i) (hc1 : ¬cond0_1 i)
    (x0 : Vec F S8x1024x128 .f32) (x1 : Vec F S8x128x128 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Scan

end
-- ==== Proof.KbScan0B.lean ====
/-
  Region 0, case B (a middle database tile): the running minimum, at what the tile before left, is lowered by this
  tile's minima; the output block is not touched.
-/
import proofs.«139087_j75685913690395_1_alg».proof.Proof.KbScan0

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B on whole memrefs: the two inputs at their contents, the output's buffer handed back untouched,
    the scratch at `xs0`; it ends with the scratch at the pieces `LS0` the run stored. -/
noncomputable def kernelRun0_B (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : ¬cond0_1 i)
    (x0 : Vec F S8x1024x128 .f32) (x1 : Vec F S8x128x128 .f32) (xs0 : Vec F S8x1024 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Scan

end
-- ==== Proof.KbScan0C.lean ====
/-
  Region 0, case C (the last database tile): the running minimum is lowered by this tile's minima and then copied
  into the output block.
-/
import proofs.«139087_j75685913690395_1_alg».proof.Proof.KbScan0

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C on whole memrefs: the two inputs at their contents, the output's buffer at anything, the
    scratch at `xs0`; it ends with the output's buffer at the pieces `L2` and the scratch at the pieces `LS0`. -/
noncomputable def kernelRun0_C (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i)
    (x0 : Vec F S8x1024x128 .f32) (x1 : Vec F S8x128x128 .f32) (xs0 : Vec F S8x1024 .f32) :
    Σ' (L2 : List (View.Piece (Elt F) S8x1024 .f32)), { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨?_, ?_, fun E K => ?run⟩
  case run =>
    simp only [cc0__min_dist_kernel_eq_skeleton]; unfold cc0__min_dist_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Scan

end
-- ==== Proof.KbBody0.lean ====
/-
  Region 0: what the output's staging buffer and the running-minimum scratch hold after every grid point (by recursion
  on the point: the case the point is in, run on the point's blocks, a middle or last tile over what the point before
  left in the scratch), the region invariant that carries the scratch between points, the proof data, and the body
  obligation at a generic point.
-/
import proofs.«139087_j75685913690395_1_alg».proof.Proof.KbScan0A
import proofs.«139087_j75685913690395_1_alg».proof.Proof.KbScan0B
import proofs.«139087_j75685913690395_1_alg».proof.Proof.KbScan0C

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back over junk (a placeholder nothing consults: the window is idle and not written back at the case's points). -/
def out0_A_2 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond0_0 i) (hc1 : ¬cond0_1 i)
    (x0 : Vec F S8x1024x128 .f32) (x1 : Vec F S8x128x128 .f32) : Vec F S8x1024 .f32 :=
  VO0_2.read (Elt F) (VO0_2.writes (Elt F) VO0_2.junk (kernelRun0_A c i arg2 harg2 arg3 harg3 arg4 harg4 arg5 harg5 hc0 hc1 x0 x1).1)

/-- Case A's stores into the running-minimum scratch cover it. -/
theorem scover0_A_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond0_0 i) (hc1 : ¬cond0_1 i)
    (x0 : Vec F S8x1024x128 .f32) (x1 : Vec F S8x128x128 .f32) (y : S8x1024.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S8x1024.size (by sl_kernel_rfl) y

/-- What case A leaves in the scratch: its pieces read back over junk. -/
def sout0_A_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond0_0 i) (hc1 : ¬cond0_1 i)
    (x0 : Vec F S8x1024x128 .f32) (x1 : Vec F S8x128x128 .f32) : Vec F S8x1024 .f32 :=
  VS0_0.read (Elt F) (VS0_0.writes (Elt F) VS0_0.junk (kernelRun0_A c i arg2 harg2 arg3 harg3 arg4 harg4 arg5 harg5 hc0 hc1 x0 x1).2.1)

/-- What case B leaves in the output's staging buffer: its pieces read back over junk (a placeholder nothing consults: the window is idle and not written back at the case's points). -/
def out0_B_2 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : ¬cond0_1 i)
    (x0 : Vec F S8x1024x128 .f32) (x1 : Vec F S8x128x128 .f32) (xs0 : Vec F S8x1024 .f32) : Vec F S8x1024 .f32 :=
  VO0_2.read (Elt F) (VO0_2.writes (Elt F) VO0_2.junk (kernelRun0_B c i arg2 harg2 arg3 harg3 arg4 harg4 arg5 harg5 hc0 hc1 x0 x1 xs0).1)

/-- Case B's stores into the running-minimum scratch cover it. -/
theorem scover0_B_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : ¬cond0_1 i)
    (x0 : Vec F S8x1024x128 .f32) (x1 : Vec F S8x128x128 .f32) (xs0 : Vec F S8x1024 .f32) (y : S8x1024.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S8x1024.size (by sl_kernel_rfl) y

/-- What case B leaves in the scratch: its pieces read back over junk. -/
def sout0_B_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : ¬cond0_1 i)
    (x0 : Vec F S8x1024x128 .f32) (x1 : Vec F S8x128x128 .f32) (xs0 : Vec F S8x1024 .f32) : Vec F S8x1024 .f32 :=
  VS0_0.read (Elt F) (VS0_0.writes (Elt F) VS0_0.junk (kernelRun0_B c i arg2 harg2 arg3 harg3 arg4 harg4 arg5 harg5 hc0 hc1 x0 x1 xs0).2.1)

/-- Case C's store into the output's staging buffer covers its block. -/
theorem cover0_C_2 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i)
    (x0 : Vec F S8x1024x128 .f32) (x1 : Vec F S8x128x128 .f32) (xs0 : Vec F S8x1024 .f32) (y : S8x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S8x1024.size (by sl_kernel_rfl) y

/-- What case C leaves in the output's staging buffer: its pieces read back over junk. -/
def out0_C_2 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i)
    (x0 : Vec F S8x1024x128 .f32) (x1 : Vec F S8x128x128 .f32) (xs0 : Vec F S8x1024 .f32) : Vec F S8x1024 .f32 :=
  VO0_2.read (Elt F) (VO0_2.writes (Elt F) VO0_2.junk (kernelRun0_C c i arg2 harg2 arg3 harg3 arg4 harg4 arg5 harg5 hc0 hc1 x0 x1 xs0).1)

/-- Case C's stores into the running-minimum scratch cover it. -/
theorem scover0_C_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i)
    (x0 : Vec F S8x1024x128 .f32) (x1 : Vec F S8x128x128 .f32) (xs0 : Vec F S8x1024 .f32) (y : S8x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S8x1024.size (by sl_kernel_rfl) y

/-- What case C leaves in the scratch: its pieces read back over junk. -/
def sout0_C_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i)
    (x0 : Vec F S8x1024x128 .f32) (x1 : Vec F S8x128x128 .f32) (xs0 : Vec F S8x1024 .f32) : Vec F S8x1024 .f32 :=
  VS0_0.read (Elt F) (VS0_0.writes (Elt F) VS0_0.junk (kernelRun0_C c i arg2 harg2 arg3 harg3 arg4 harg4 arg5 harg5 hc0 hc1 x0 x1 xs0).2.1)

section Region0
variable (V : (c : Dev nD) → (b : Ref sig .tc) → Buf (Elt F) ((c : Thread nD τ).loc b))

/-! ## What the output's buffer and the scratch hold after each point -/

/-- After the body at position `n`: (the output's staging buffer, the scratch). -/
def outsAt0 (c : Dev nD) : (n : ℕ) → n < cfg0.N → Vec F S8x1024 .f32 × Vec F S8x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 32 = 0 then
      if h1 : (n + 1) % 32 = 31 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 32 = 0) (h1 : ¬t.val % 32 = 31) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch at anything); afterwards
    the scratch at what the point before left in it, the other launch's scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The proof data -/

/-- The proof data of this pipeline on core `c`: the arrays as the region finds them; after the body at point `t` each
    input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms of the two conditions say which case
    the point is in; the invariant hands the body the scratch at what the point before left (at anything at the first
    point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 32 = 0
  · by_cases h1 : t.val % 32 = 31
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun h => h0 (by rw [h])
    by_cases h1 : t.val % 32 = 31
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, Hoth⟩, Hg⟩
  isplitl [HS0 Hoth]
  · isplitl [HS0]
    · iexists _; iexact HS0
    iexact Hoth
  iexact Hg

end Region0

end Cert.Kernel.Scan

end
-- ==== Proof.KbScan1.lean ====
/-
  Region 1 (the second nearest-neighbour scan: queries from the second argument, database from the first), the part
  every control case shares. The grid is 4 query tiles by 32 database tiles; point t is (t / 32, t % 32). The body
  resets its running minimum when t % 32 = 0 and copies it to the output block when t % 32 = 31; so there are three
  control cases: first database tile (A), a middle one (B), the last one (C). The output window is idle, and not
  written back, in cases A and B.
-/
import proofs.«139087_j75685913690395_1_alg».proof.Proof.Gen.Kernel.Launch
import proofs.«139087_j75685913690395_1_alg».proof.Proof.Gen.Kernel.Skeleton
import proofs.«139087_j75685913690395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The database window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- "This is the first database tile." -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

/-- "This is the last database tile." -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S8x1024 .f32 := (Memref.whole cc1_stg2_0 : Memref sig .tc .vmem S8x1024 .f32).view
abbrev ms1_0 (t : Fin cfg1.N) : Memref sig .tc .vmem S8x1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
/-- The running-minimum scratch, a whole scoped buffer of the kernel's own. -/
abbrev scM1_0 : Memref sig .tc .vmem S8x1024 .f32 := Memref.whole cc1_scratch0
abbrev VS1_0 : View sig .tc .vmem S8x1024 .f32 := scM1_0.view

/-- The scoped buffers that belong to the other launch, each whole at some contents: this region never looks at them. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant with the scratch singled out: the scratch at some contents, the other launch's scoped
    buffers at some contents, the generator register at some state. (The scratch is the last of the scoped buffers
    here, so the two sides differ by the order of the separating conjunction.) -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA; rw [scopedRest1_eq]; simp only [scM1_0, owns_whole]
  refine BI.Entails.antisymm (show (_ : sProp 𝕄) ⊢ _ from ?_) (show (_ : sProp 𝕄) ⊢ _ from ?_)
  ·     iintro ⟨⟨A1, A2, A3, A4, A5, A6, A7, HS⟩, Hg⟩
        isplitl [A1 A2 A3 A4 A5 A6 A7 HS]
        · isplitl [HS]; · iexact HS
          isplitl [A1]; · iexact A1
          isplitl [A2]; · iexact A2
          isplitl [A3]; · iexact A3
          isplitl [A4]; · iexact A4
          isplitl [A5]; · iexact A5
          isplitl [A6]; · iexact A6
          iexact A7
        iexact Hg
  ·     iintro ⟨⟨HS, A1, A2, A3, A4, A5, A6, A7⟩, Hg⟩
        isplitl [A1 A2 A3 A4 A5 A6 A7 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg

end Cert.Kernel.Scan

end
-- ==== Proof.KbScan1A.lean ====
/-
  Region 1, case A (the first database tile of a query tile): the body resets the running minimum to +∞ and then
  lowers it by this tile's minima; the output block is not touched. The stores the run meets are its witness.
-/
import proofs.«139087_j75685913690395_1_alg».proof.Proof.KbScan1

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A on whole memrefs: the two inputs at their contents, the output's buffer handed back untouched,
    the scratch at anything; it ends with the scratch at the pieces `LS0` the run stored. -/
noncomputable def kernelRun1_A (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x1024x128 .f32) (x1 : Vec F S8x128x128 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Scan

end
-- ==== Proof.KbScan1B.lean ====
/-
  Region 1, case B (a middle database tile): the running minimum, at what the tile before left, is lowered by this
  tile's minima; the output block is not touched.
-/
import proofs.«139087_j75685913690395_1_alg».proof.Proof.KbScan1

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B on whole memrefs: the two inputs at their contents, the output's buffer handed back untouched,
    the scratch at `xs0`; it ends with the scratch at the pieces `LS0` the run stored. -/
noncomputable def kernelRun1_B (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x1024x128 .f32) (x1 : Vec F S8x128x128 .f32) (xs0 : Vec F S8x1024 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Scan

end
-- ==== Proof.KbScan1C.lean ====
/-
  Region 1, case C (the last database tile): the running minimum is lowered by this tile's minima and then copied
  into the output block.
-/
import proofs.«139087_j75685913690395_1_alg».proof.Proof.KbScan1

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C on whole memrefs: the two inputs at their contents, the output's buffer at anything, the
    scratch at `xs0`; it ends with the output's buffer at the pieces `L2` and the scratch at the pieces `LS0`. -/
noncomputable def kernelRun1_C (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x1024x128 .f32) (x1 : Vec F S8x128x128 .f32) (xs0 : Vec F S8x1024 .f32) :
    Σ' (L2 : List (View.Piece (Elt F) S8x1024 .f32)), { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨?_, ?_, fun E K => ?run⟩
  case run =>
    simp only [cc1__min_dist_kernel_eq_skeleton]; unfold cc1__min_dist_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Scan

end
-- ==== Proof.KbBody1.lean ====
/-
  Region 1: what the output's staging buffer and the running-minimum scratch hold after every grid point (by recursion
  on the point: the case the point is in, run on the point's blocks, a middle or last tile over what the point before
  left in the scratch), the region invariant that carries the scratch between points, the proof data, and the body
  obligation at a generic point.
-/
import proofs.«139087_j75685913690395_1_alg».proof.Proof.KbScan1A
import proofs.«139087_j75685913690395_1_alg».proof.Proof.KbScan1B
import proofs.«139087_j75685913690395_1_alg».proof.Proof.KbScan1C

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back over junk (a placeholder nothing consults: the window is idle and not written back at the case's points). -/
def out1_A_2 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x1024x128 .f32) (x1 : Vec F S8x128x128 .f32) : Vec F S8x1024 .f32 :=
  VO1_2.read (Elt F) (VO1_2.writes (Elt F) VO1_2.junk (kernelRun1_A c i arg2 harg2 arg3 harg3 arg4 harg4 arg5 harg5 hc0 hc1 x0 x1).1)

/-- Case A's stores into the running-minimum scratch cover it. -/
theorem scover1_A_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x1024x128 .f32) (x1 : Vec F S8x128x128 .f32) (y : S8x1024.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S8x1024.size (by sl_kernel_rfl) y

/-- What case A leaves in the scratch: its pieces read back over junk. -/
def sout1_A_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x1024x128 .f32) (x1 : Vec F S8x128x128 .f32) : Vec F S8x1024 .f32 :=
  VS1_0.read (Elt F) (VS1_0.writes (Elt F) VS1_0.junk (kernelRun1_A c i arg2 harg2 arg3 harg3 arg4 harg4 arg5 harg5 hc0 hc1 x0 x1).2.1)

/-- What case B leaves in the output's staging buffer: its pieces read back over junk (a placeholder nothing consults: the window is idle and not written back at the case's points). -/
def out1_B_2 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x1024x128 .f32) (x1 : Vec F S8x128x128 .f32) (xs0 : Vec F S8x1024 .f32) : Vec F S8x1024 .f32 :=
  VO1_2.read (Elt F) (VO1_2.writes (Elt F) VO1_2.junk (kernelRun1_B c i arg2 harg2 arg3 harg3 arg4 harg4 arg5 harg5 hc0 hc1 x0 x1 xs0).1)

/-- Case B's stores into the running-minimum scratch cover it. -/
theorem scover1_B_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x1024x128 .f32) (x1 : Vec F S8x128x128 .f32) (xs0 : Vec F S8x1024 .f32) (y : S8x1024.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S8x1024.size (by sl_kernel_rfl) y

/-- What case B leaves in the scratch: its pieces read back over junk. -/
def sout1_B_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x1024x128 .f32) (x1 : Vec F S8x128x128 .f32) (xs0 : Vec F S8x1024 .f32) : Vec F S8x1024 .f32 :=
  VS1_0.read (Elt F) (VS1_0.writes (Elt F) VS1_0.junk (kernelRun1_B c i arg2 harg2 arg3 harg3 arg4 harg4 arg5 harg5 hc0 hc1 x0 x1 xs0).2.1)

/-- Case C's store into the output's staging buffer covers its block. -/
theorem cover1_C_2 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x1024x128 .f32) (x1 : Vec F S8x128x128 .f32) (xs0 : Vec F S8x1024 .f32) (y : S8x1024.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x1024.size (by sl_kernel_rfl) y

/-- What case C leaves in the output's staging buffer: its pieces read back over junk. -/
def out1_C_2 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x1024x128 .f32) (x1 : Vec F S8x128x128 .f32) (xs0 : Vec F S8x1024 .f32) : Vec F S8x1024 .f32 :=
  VO1_2.read (Elt F) (VO1_2.writes (Elt F) VO1_2.junk (kernelRun1_C c i arg2 harg2 arg3 harg3 arg4 harg4 arg5 harg5 hc0 hc1 x0 x1 xs0).1)

/-- Case C's stores into the running-minimum scratch cover it. -/
theorem scover1_C_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x1024x128 .f32) (x1 : Vec F S8x128x128 .f32) (xs0 : Vec F S8x1024 .f32) (y : S8x1024.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S8x1024.size (by sl_kernel_rfl) y

/-- What case C leaves in the scratch: its pieces read back over junk. -/
def sout1_C_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x1024x128 .f32) (x1 : Vec F S8x128x128 .f32) (xs0 : Vec F S8x1024 .f32) : Vec F S8x1024 .f32 :=
  VS1_0.read (Elt F) (VS1_0.writes (Elt F) VS1_0.junk (kernelRun1_C c i arg2 harg2 arg3 harg3 arg4 harg4 arg5 harg5 hc0 hc1 x0 x1 xs0).2.1)

section Region1
variable (V : (c : Dev nD) → (b : Ref sig .tc) → Buf (Elt F) ((c : Thread nD τ).loc b))

/-! ## What the output's buffer and the scratch hold after each point -/

/-- After the body at position `n`: (the output's staging buffer, the scratch). -/
def outsAt1 (c : Dev nD) : (n : ℕ) → n < cfg1.N → Vec F S8x1024 .f32 × Vec F S8x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 32 = 0 then
      if h1 : (n + 1) % 32 = 31 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 32 = 31 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch at anything); afterwards
    the scratch at what the point before left in it, the other launch's scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The proof data -/

/-- The proof data of this pipeline on core `c`: the arrays as the region finds them; after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms of the two conditions say which case
    the point is in; the invariant hands the body the scratch at what the point before left (at anything at the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 32 = 0
  · by_cases h1 : t.val % 32 = 31
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _)
            iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun h => h0 (by rw [h])
    by_cases h1 : t.val % 32 = 31
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _)
          iexact Hoth
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, Hoth⟩, Hg⟩
  isplitl [HS0 Hoth]
  · isplitl [HS0]
    · iexists _; iexact HS0
    iexact Hoth
  iexact Hg

end Region1

end Cert.Kernel.Scan

end
-- ==== Proof.KbLaunch.lean ====
/-
  The whole run: @main is two kernel regions (the two nearest-neighbour scans) followed by one stretch of host
  operations (the two means and their average). The buffer contents at each boundary are named as a fold from the
  launch memory: a region changes only its output window's array, which ends at what its write-backs leave; the host
  stretch is `StableHlo.after`. Every weakly fair execution terminates with every unscoped buffer at the last
  boundary's contents; in particular the two argument arrays end as launched.
-/
import proofs.«139087_j75685913690395_1_alg».proof.Proof.KbBody0
import proofs.«139087_j75685913690395_1_alg».proof.Proof.KbBody1
import proofs.«139087_j75685913690395_1_alg».proof.Proof.Gen.Kernel.Regions

set_option maxRecDepth 16384

noncomputable section

namespace Cert.Kernel.Scan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit (region 1's entry): its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- At region 1's exit: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-- After the host stretch: the return. -/
abbrev W5 : Dev nD → Valuation τ sig (Elt F) := fun c => StableHlo.after hostOps2 (W4 m ρ c)

/-! ### The arguments end as launched: no host operation writes one, and a region only reads it through an input window -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W2 m ρ c (Proc.devRef .tc main_arg0) := (W4_arr m ρ c 1).trans (((dat1 (V2 m ρ) c).arrAt_in 1 rfl _).trans (A_eq1 (V2 m ρ) c 1))
    _ = W0 m ρ c (Proc.devRef .tc main_arg0) := (W2_arr m ρ c 0).trans (((dat0 (V0 m ρ) c).arrAt_in 0 rfl _).trans (A_eq0 (V0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W2 m ρ c (Proc.devRef .tc main_arg1) := (W4_arr m ρ c 0).trans (((dat1 (V2 m ρ) c).arrAt_in 0 rfl _).trans (A_eq1 (V2 m ρ) c 0))
    _ = W0 m ρ c (Proc.devRef .tc main_arg1) := (W2_arr m ρ c 1).trans (((dat0 (V0 m ρ) c).arrAt_in 1 rfl _).trans (A_eq0 (V0 m ρ) c 1))
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W0`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m ρ) c
    unfold Pipeline.ΦA at h
    show _ ⊢ (dat0 (V0 m ρ) c).Φ 0
    iintro ⟨Hp, -, Hr⟩
    iapply h
    isplitl [Hr]; · iexact Hr
    iexact Hp
  hout c := by
    rw [Pipeline.ownSems0_none]
    have h := hout0 (V0 m ρ) c
    unfold Pipeline.ΦA at h
    show (dat0 (V0 m ρ) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (fun b => W2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W4`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m ρ) c
    unfold Pipeline.ΦA at h
    show _ ⊢ (dat1 (V2 m ρ) c).Φ 0
    iintro ⟨Hp, -, Hr⟩
    iapply h
    isplitl [Hr]; · iexact Hr
    iexact Hp
  hout c := by
    rw [Pipeline.ownSems0_none]
    have h := hout1 (V2 m ρ) c
    unfold Pipeline.ΦA at h
    show (dat1 (V2 m ρ) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (fun b => W4 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host stretch as a segment, from region 1's exit contents. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m ρ) R

/-! ## @main as segments, and the launch -/

abbrev segs : List (Pipeline.Seg (pcfgs (F := F)) adm (pdats m ρ) () defs₀ 𝒱₀ L lv) :=
  [ .region (reg0 m ρ), .region (reg1 m ρ), .host (hseg2 m ρ) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.Kernel.Scan

end
-- ==== Proof.KiScan0.lean ====
/-
  Region 0 (the first nearest-neighbour scan: queries from the first argument, database from the second), the part
  every control case shares. The grid is 4 query tiles by 32 database tiles; point t is (t / 32, t % 32). The body
  resets its running minimum when t % 32 = 0 and copies it to the output block when t % 32 = 31; so there are three
  control cases: first database tile (A), a middle one (B), the last one (C). The output window is idle, and not
  written back, in cases A and B.
-/
import proofs.«139087_j75685913690395_1_alg».proof.Proof.Gen.KernelIdeal.Launch
import proofs.«139087_j75685913690395_1_alg».proof.Proof.Gen.KernelIdeal.Skeleton
import proofs.«139087_j75685913690395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The database window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two conditions, decided over the grid -/

/-- "This is the first database tile." -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last database tile." -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S8x1024 .f32 := (Memref.whole cc0_stg2_0 : Memref sig .tc .vmem S8x1024 .f32).view
abbrev ms0_0 (t : Fin cfg0.N) : Memref sig .tc .vmem S8x1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1024 .f32 := win0_2.stage (cfg0.slots t 2)
abbrev hs0_2 (t : Fin cfg0.N) : (ms0_2 t).IsWhole := hstage0_2 ((cfg0.slots t 2).cast nbuf0_2)
/-- The running-minimum scratch, a whole scoped buffer of the kernel's own. -/
abbrev scM0_0 : Memref sig .tc .vmem S8x1024 .f32 := Memref.whole cc0_scratch0
abbrev VS0_0 : View sig .tc .vmem S8x1024 .f32 := scM0_0.view

/-- The scoped buffers that belong to the other launch, each whole at some contents: this region never looks at them. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch singled out: the scratch at some contents, the other launch's scoped
    buffers at some contents, the generator register at some state. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_eq]; simp only [scM0_0, owns_whole]; try rfl

end Cert.KernelIdeal.Scan

end
-- ==== Proof.KiScan0A.lean ====
/-
  Region 0, case A (the first database tile of a query tile): the body resets the running minimum to +∞ and then
  lowers it by this tile's minima; the output block is not touched. The stores the run meets are its witness.
-/
import proofs.«139087_j75685913690395_1_alg».proof.Proof.KiScan0

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A on whole memrefs: the two inputs at their contents, the output's buffer handed back untouched,
    the scratch at anything; it ends with the scratch at the pieces `LS0` the run stored. -/
noncomputable def kernelRun0_A (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond0_0 i) (hc1 : ¬cond0_1 i)
    (x0 : Vec F S8x1024x128 .f32) (x1 : Vec F S8x128x128 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Scan

end
-- ==== Proof.KiScan0B.lean ====
/-
  Region 0, case B (a middle database tile): the running minimum, at what the tile before left, is lowered by this
  tile's minima; the output block is not touched.
-/
import proofs.«139087_j75685913690395_1_alg».proof.Proof.KiScan0

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B on whole memrefs: the two inputs at their contents, the output's buffer handed back untouched,
    the scratch at `xs0`; it ends with the scratch at the pieces `LS0` the run stored. -/
noncomputable def kernelRun0_B (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : ¬cond0_1 i)
    (x0 : Vec F S8x1024x128 .f32) (x1 : Vec F S8x128x128 .f32) (xs0 : Vec F S8x1024 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨[], ?_, fun xi2 E K => ?run⟩
  case run =>
    simp only [cc0__min_dist_kernel_eq_skeleton]; unfold cc0__min_dist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Scan

end
-- ==== Proof.KiScan0C.lean ====
/-
  Region 0, case C (the last database tile): the running minimum is lowered by this tile's minima and then copied
  into the output block.
-/
import proofs.«139087_j75685913690395_1_alg».proof.Proof.KiScan0

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C on whole memrefs: the two inputs at their contents, the output's buffer at anything, the
    scratch at `xs0`; it ends with the output's buffer at the pieces `L2` and the scratch at the pieces `LS0`. -/
noncomputable def kernelRun0_C (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i)
    (x0 : Vec F S8x1024x128 .f32) (x1 : Vec F S8x128x128 .f32) (xs0 : Vec F S8x1024 .f32) :
    Σ' (L2 : List (View.Piece (Elt F) S8x1024 .f32)), { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__min_dist_kernel i arg2 harg2 arg3 harg3 arg4 harg4 arg5 harg5) K } := by
  refine ⟨?_, ?_, fun E K => ?run⟩
  case run =>
    simp only [cc0__min_dist_kernel_eq_skeleton]; unfold cc0__min_dist_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Scan

end
-- ==== Proof.KiBody0.lean ====
/-
  Region 0: what the output's staging buffer and the running-minimum scratch hold after every grid point (by recursion
  on the point: the case the point is in, run on the point's blocks, a middle or last tile over what the point before
  left in the scratch), the region invariant that carries the scratch between points, the proof data, and the body
  obligation at a generic point.
-/
import proofs.«139087_j75685913690395_1_alg».proof.Proof.KiScan0A
import proofs.«139087_j75685913690395_1_alg».proof.Proof.KiScan0B
import proofs.«139087_j75685913690395_1_alg».proof.Proof.KiScan0C

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back over junk (a placeholder nothing consults: the window is idle and not written back at the case's points). -/
def out0_A_2 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond0_0 i) (hc1 : ¬cond0_1 i)
    (x0 : Vec F S8x1024x128 .f32) (x1 : Vec F S8x128x128 .f32) : Vec F S8x1024 .f32 :=
  VO0_2.read (Elt F) (VO0_2.writes (Elt F) VO0_2.junk (kernelRun0_A c i arg2 harg2 arg3 harg3 arg4 harg4 arg5 harg5 hc0 hc1 x0 x1).1)

/-- Case A's stores into the running-minimum scratch cover it. -/
theorem scover0_A_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond0_0 i) (hc1 : ¬cond0_1 i)
    (x0 : Vec F S8x1024x128 .f32) (x1 : Vec F S8x128x128 .f32) (y : S8x1024.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S8x1024.size (by sl_kernel_rfl) y

/-- What case A leaves in the scratch: its pieces read back over junk. -/
def sout0_A_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond0_0 i) (hc1 : ¬cond0_1 i)
    (x0 : Vec F S8x1024x128 .f32) (x1 : Vec F S8x128x128 .f32) : Vec F S8x1024 .f32 :=
  VS0_0.read (Elt F) (VS0_0.writes (Elt F) VS0_0.junk (kernelRun0_A c i arg2 harg2 arg3 harg3 arg4 harg4 arg5 harg5 hc0 hc1 x0 x1).2.1)

/-- What case B leaves in the output's staging buffer: its pieces read back over junk (a placeholder nothing consults: the window is idle and not written back at the case's points). -/
def out0_B_2 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : ¬cond0_1 i)
    (x0 : Vec F S8x1024x128 .f32) (x1 : Vec F S8x128x128 .f32) (xs0 : Vec F S8x1024 .f32) : Vec F S8x1024 .f32 :=
  VO0_2.read (Elt F) (VO0_2.writes (Elt F) VO0_2.junk (kernelRun0_B c i arg2 harg2 arg3 harg3 arg4 harg4 arg5 harg5 hc0 hc1 x0 x1 xs0).1)

/-- Case B's stores into the running-minimum scratch cover it. -/
theorem scover0_B_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : ¬cond0_1 i)
    (x0 : Vec F S8x1024x128 .f32) (x1 : Vec F S8x128x128 .f32) (xs0 : Vec F S8x1024 .f32) (y : S8x1024.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S8x1024.size (by sl_kernel_rfl) y

/-- What case B leaves in the scratch: its pieces read back over junk. -/
def sout0_B_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : ¬cond0_1 i)
    (x0 : Vec F S8x1024x128 .f32) (x1 : Vec F S8x128x128 .f32) (xs0 : Vec F S8x1024 .f32) : Vec F S8x1024 .f32 :=
  VS0_0.read (Elt F) (VS0_0.writes (Elt F) VS0_0.junk (kernelRun0_B c i arg2 harg2 arg3 harg3 arg4 harg4 arg5 harg5 hc0 hc1 x0 x1 xs0).2.1)

/-- Case C's store into the output's staging buffer covers its block. -/
theorem cover0_C_2 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i)
    (x0 : Vec F S8x1024x128 .f32) (x1 : Vec F S8x128x128 .f32) (xs0 : Vec F S8x1024 .f32) (y : S8x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S8x1024.size (by sl_kernel_rfl) y

/-- What case C leaves in the output's staging buffer: its pieces read back over junk. -/
def out0_C_2 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i)
    (x0 : Vec F S8x1024x128 .f32) (x1 : Vec F S8x128x128 .f32) (xs0 : Vec F S8x1024 .f32) : Vec F S8x1024 .f32 :=
  VO0_2.read (Elt F) (VO0_2.writes (Elt F) VO0_2.junk (kernelRun0_C c i arg2 harg2 arg3 harg3 arg4 harg4 arg5 harg5 hc0 hc1 x0 x1 xs0).1)

/-- Case C's stores into the running-minimum scratch cover it. -/
theorem scover0_C_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i)
    (x0 : Vec F S8x1024x128 .f32) (x1 : Vec F S8x128x128 .f32) (xs0 : Vec F S8x1024 .f32) (y : S8x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S8x1024.size (by sl_kernel_rfl) y

/-- What case C leaves in the scratch: its pieces read back over junk. -/
def sout0_C_0 (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i)
    (x0 : Vec F S8x1024x128 .f32) (x1 : Vec F S8x128x128 .f32) (xs0 : Vec F S8x1024 .f32) : Vec F S8x1024 .f32 :=
  VS0_0.read (Elt F) (VS0_0.writes (Elt F) VS0_0.junk (kernelRun0_C c i arg2 harg2 arg3 harg3 arg4 harg4 arg5 harg5 hc0 hc1 x0 x1 xs0).2.1)

section Region0
variable (V : (c : Dev nD) → (b : Ref sig .tc) → Buf (Elt F) ((c : Thread nD τ).loc b))

/-! ## What the output's buffer and the scratch hold after each point -/

/-- After the body at position `n`: (the output's staging buffer, the scratch). -/
def outsAt0 (c : Dev nD) : (n : ℕ) → n < cfg0.N → Vec F S8x1024 .f32 × Vec F S8x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 32 = 0 then
      if h1 : (n + 1) % 32 = 31 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 32 = 0) (h1 : ¬t.val % 32 = 31) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch at anything); afterwards
    the scratch at what the point before left in it, the other launch's scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 (F := F) c) ∗ (∃ r, prngReg c r)) := by
  cases n with
  | zero => exact absurd rfl hz
  | succ n => rfl

/-! ## The proof data -/

/-- The proof data of this pipeline on core `c`: the arrays as the region finds them; after the body at point `t` each
    input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms of the two conditions say which case
    the point is in; the invariant hands the body the scratch at what the point before left (at anything at the first
    point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 32 = 0
  · by_cases h1 : t.val % 32 = 31
    · exfalso; omega
    · rw [Dat.leavesExact_idle (dat0 V c) 2 t (idleAt0_2 t (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun h => h0 (by rw [h])
    by_cases h1 : t.val % 32 = 31
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, Hoth⟩, Hg⟩
  isplitl [HS0 Hoth]
  · isplitl [HS0]
    · iexists _; iexact HS0
    iexact Hoth
  iexact Hg

end Region0

end Cert.KernelIdeal.Scan

end
-- ==== Proof.KiScan1.lean ====
/-
  Region 1 (the second nearest-neighbour scan: queries from the second argument, database from the first), the part
  every control case shares. The grid is 4 query tiles by 32 database tiles; point t is (t / 32, t % 32). The body
  resets its running minimum when t % 32 = 0 and copies it to the output block when t % 32 = 31; so there are three
  control cases: first database tile (A), a middle one (B), the last one (C). The output window is idle, and not
  written back, in cases A and B.
-/
import proofs.«139087_j75685913690395_1_alg».proof.Proof.Gen.KernelIdeal.Launch
import proofs.«139087_j75685913690395_1_alg».proof.Proof.Gen.KernelIdeal.Skeleton
import proofs.«139087_j75685913690395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The database window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- "This is the first database tile." -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)

/-- "This is the last database tile." -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev VO1_2 : View sig .tc .vmem S8x1024 .f32 := (Memref.whole cc1_stg2_0 : Memref sig .tc .vmem S8x1024 .f32).view
abbrev ms1_0 (t : Fin cfg1.N) : Memref sig .tc .vmem S8x1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1024 .f32 := win1_2.stage (cfg1.slots t 2)
abbrev hs1_2 (t : Fin cfg1.N) : (ms1_2 t).IsWhole := hstage1_2 ((cfg1.slots t 2).cast nbuf1_2)
/-- The running-minimum scratch, a whole scoped buffer of the kernel's own. -/
abbrev scM1_0 : Memref sig .tc .vmem S8x1024 .f32 := Memref.whole cc1_scratch0
abbrev VS1_0 : View sig .tc .vmem S8x1024 .f32 := scM1_0.view

/-- The scoped buffers that belong to the other launch, each whole at some contents: this region never looks at them. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant with the scratch singled out: the scratch at some contents, the other launch's scoped
    buffers at some contents, the generator register at some state. (The scratch is the last of the scoped buffers
    here, so the two sides differ by the order of the separating conjunction.) -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA; rw [scopedRest1_eq]; simp only [scM1_0, owns_whole]
  refine BI.Entails.antisymm (show (_ : sProp 𝕄) ⊢ _ from ?_) (show (_ : sProp 𝕄) ⊢ _ from ?_)
  ·     iintro ⟨⟨A1, A2, A3, A4, A5, A6, A7, HS⟩, Hg⟩
        isplitl [A1 A2 A3 A4 A5 A6 A7 HS]
        · isplitl [HS]; · iexact HS
          isplitl [A1]; · iexact A1
          isplitl [A2]; · iexact A2
          isplitl [A3]; · iexact A3
          isplitl [A4]; · iexact A4
          isplitl [A5]; · iexact A5
          isplitl [A6]; · iexact A6
          iexact A7
        iexact Hg
  ·     iintro ⟨⟨HS, A1, A2, A3, A4, A5, A6, A7⟩, Hg⟩
        isplitl [A1 A2 A3 A4 A5 A6 A7 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg

end Cert.KernelIdeal.Scan

end
-- ==== Proof.KiScan1A.lean ====
/-
  Region 1, case A (the first database tile of a query tile): the body resets the running minimum to +∞ and then
  lowers it by this tile's minima; the output block is not touched. The stores the run meets are its witness.
-/
import proofs.«139087_j75685913690395_1_alg».proof.Proof.KiScan1

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case A on whole memrefs: the two inputs at their contents, the output's buffer handed back untouched,
    the scratch at anything; it ends with the scratch at the pieces `LS0` the run stored. -/
noncomputable def kernelRun1_A (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x1024x128 .f32) (x1 : Vec F S8x128x128 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Scan

end
-- ==== Proof.KiScan1B.lean ====
/-
  Region 1, case B (a middle database tile): the running minimum, at what the tile before left, is lowered by this
  tile's minima; the output block is not touched.
-/
import proofs.«139087_j75685913690395_1_alg».proof.Proof.KiScan1

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case B on whole memrefs: the two inputs at their contents, the output's buffer handed back untouched,
    the scratch at `xs0`; it ends with the scratch at the pieces `LS0` the run stored. -/
noncomputable def kernelRun1_B (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x1024x128 .f32) (x1 : Vec F S8x128x128 .f32) (xs0 : Vec F S8x1024 .f32) :
    Σ' (L2 : List (View.Piece (Elt F) S8x1024 .f32)), { LS0 : List (View.Piece (Elt F) S8x1024 .f32) //
      ∀ (xi2 : Vec F S8x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨[], ?_, fun xi2 E K => ?run⟩
  case run =>
    simp only [cc1__min_dist_kernel_eq_skeleton]; unfold cc1__min_dist_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Scan

end
-- ==== Proof.KiScan1C.lean ====
/-
  Region 1, case C (the last database tile): the running minimum is lowered by this tile's minima and then copied
  into the output block.
-/
import proofs.«139087_j75685913690395_1_alg».proof.Proof.KiScan1

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in case C on whole memrefs: the two inputs at their contents, the output's buffer at anything, the
    scratch at `xs0`; it ends with the output's buffer at the pieces `L2` and the scratch at the pieces `LS0`. -/
noncomputable def kernelRun1_C (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x1024x128 .f32) (x1 : Vec F S8x128x128 .f32) (xs0 : Vec F S8x1024 .f32) :
    Σ' (L2 : List (View.Piece (Elt F) S8x1024 .f32)), { LS0 : List (View.Piece (Elt F) S8x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__min_dist_kernel i arg2 harg2 arg3 harg3 arg4 harg4 arg5 harg5) K } := by
  refine ⟨?_, ?_, fun E K => ?run⟩
  case run =>
    simp only [cc1__min_dist_kernel_eq_skeleton]; unfold cc1__min_dist_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Scan

end
-- ==== Proof.KiBody1.lean ====
/-
  Region 1: what the output's staging buffer and the running-minimum scratch hold after every grid point (by recursion
  on the point: the case the point is in, run on the point's blocks, a middle or last tile over what the point before
  left in the scratch), the region invariant that carries the scratch between points, the proof data, and the body
  obligation at a generic point.
-/
import proofs.«139087_j75685913690395_1_alg».proof.Proof.KiScan1A
import proofs.«139087_j75685913690395_1_alg».proof.Proof.KiScan1B
import proofs.«139087_j75685913690395_1_alg».proof.Proof.KiScan1C

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back over junk (a placeholder nothing consults: the window is idle and not written back at the case's points). -/
def out1_A_2 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x1024x128 .f32) (x1 : Vec F S8x128x128 .f32) : Vec F S8x1024 .f32 :=
  VO1_2.read (Elt F) (VO1_2.writes (Elt F) VO1_2.junk (kernelRun1_A c i arg2 harg2 arg3 harg3 arg4 harg4 arg5 harg5 hc0 hc1 x0 x1).1)

/-- Case A's stores into the running-minimum scratch cover it. -/
theorem scover1_A_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x1024x128 .f32) (x1 : Vec F S8x128x128 .f32) (y : S8x1024.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S8x1024.size (by sl_kernel_rfl) y

/-- What case A leaves in the scratch: its pieces read back over junk. -/
def sout1_A_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i)
    (x0 : Vec F S8x1024x128 .f32) (x1 : Vec F S8x128x128 .f32) : Vec F S8x1024 .f32 :=
  VS1_0.read (Elt F) (VS1_0.writes (Elt F) VS1_0.junk (kernelRun1_A c i arg2 harg2 arg3 harg3 arg4 harg4 arg5 harg5 hc0 hc1 x0 x1).2.1)

/-- What case B leaves in the output's staging buffer: its pieces read back over junk (a placeholder nothing consults: the window is idle and not written back at the case's points). -/
def out1_B_2 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x1024x128 .f32) (x1 : Vec F S8x128x128 .f32) (xs0 : Vec F S8x1024 .f32) : Vec F S8x1024 .f32 :=
  VO1_2.read (Elt F) (VO1_2.writes (Elt F) VO1_2.junk (kernelRun1_B c i arg2 harg2 arg3 harg3 arg4 harg4 arg5 harg5 hc0 hc1 x0 x1 xs0).1)

/-- Case B's stores into the running-minimum scratch cover it. -/
theorem scover1_B_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x1024x128 .f32) (x1 : Vec F S8x128x128 .f32) (xs0 : Vec F S8x1024 .f32) (y : S8x1024.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S8x1024.size (by sl_kernel_rfl) y

/-- What case B leaves in the scratch: its pieces read back over junk. -/
def sout1_B_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i)
    (x0 : Vec F S8x1024x128 .f32) (x1 : Vec F S8x128x128 .f32) (xs0 : Vec F S8x1024 .f32) : Vec F S8x1024 .f32 :=
  VS1_0.read (Elt F) (VS1_0.writes (Elt F) VS1_0.junk (kernelRun1_B c i arg2 harg2 arg3 harg3 arg4 harg4 arg5 harg5 hc0 hc1 x0 x1 xs0).2.1)

/-- Case C's store into the output's staging buffer covers its block. -/
theorem cover1_C_2 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x1024x128 .f32) (x1 : Vec F S8x128x128 .f32) (xs0 : Vec F S8x1024 .f32) (y : S8x1024.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S8x1024.size (by sl_kernel_rfl) y

/-- What case C leaves in the output's staging buffer: its pieces read back over junk. -/
def out1_C_2 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x1024x128 .f32) (x1 : Vec F S8x128x128 .f32) (xs0 : Vec F S8x1024 .f32) : Vec F S8x1024 .f32 :=
  VO1_2.read (Elt F) (VO1_2.writes (Elt F) VO1_2.junk (kernelRun1_C c i arg2 harg2 arg3 harg3 arg4 harg4 arg5 harg5 hc0 hc1 x0 x1 xs0).1)

/-- Case C's stores into the running-minimum scratch cover it. -/
theorem scover1_C_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x1024x128 .f32) (x1 : Vec F S8x128x128 .f32) (xs0 : Vec F S8x1024 .f32) (y : S8x1024.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S8x1024.size (by sl_kernel_rfl) y

/-- What case C leaves in the scratch: its pieces read back over junk. -/
def sout1_C_0 (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i)
    (x0 : Vec F S8x1024x128 .f32) (x1 : Vec F S8x128x128 .f32) (xs0 : Vec F S8x1024 .f32) : Vec F S8x1024 .f32 :=
  VS1_0.read (Elt F) (VS1_0.writes (Elt F) VS1_0.junk (kernelRun1_C c i arg2 harg2 arg3 harg3 arg4 harg4 arg5 harg5 hc0 hc1 x0 x1 xs0).2.1)

section Region1
variable (V : (c : Dev nD) → (b : Ref sig .tc) → Buf (Elt F) ((c : Thread nD τ).loc b))

/-! ## What the output's buffer and the scratch hold after each point -/

/-- After the body at position `n`: (the output's staging buffer, the scratch). -/
def outsAt1 (c : Dev nD) : (n : ℕ) → n < cfg1.N → Vec F S8x1024 .f32 × Vec F S8x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 32 = 0 then
      if h1 : (n + 1) % 32 = 31 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 32 = 31 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch at anything); afterwards
    the scratch at what the point before left in it, the other launch's scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The proof data -/

/-- The proof data of this pipeline on core `c`: the arrays as the region finds them; after the body at point `t` each
    input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the closed forms of the two conditions say which case
    the point is in; the invariant hands the body the scratch at what the point before left (at anything at the first
    point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 32 = 0
  · by_cases h1 : t.val % 32 = 31
    · exfalso; omega
    · rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _)
            iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hoth⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun h => h0 (by rw [h])
    by_cases h1 : t.val % 32 = 31
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _)
          iexact Hoth
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, Hoth⟩, Hg⟩
  isplitl [HS0 Hoth]
  · isplitl [HS0]
    · iexists _; iexact HS0
    iexact Hoth
  iexact Hg

end Region1

end Cert.KernelIdeal.Scan

end
-- ==== Proof.KiLaunch.lean ====
/-
  The whole run: @main is two kernel regions (the two nearest-neighbour scans) followed by one stretch of host
  operations (the two means and their average). The buffer contents at each boundary are named as a fold from the
  launch memory: a region changes only its output window's array, which ends at what its write-backs leave; the host
  stretch is `StableHlo.after`. Every weakly fair execution terminates with every unscoped buffer at the last
  boundary's contents; in particular the two argument arrays end as launched.
-/
import proofs.«139087_j75685913690395_1_alg».proof.Proof.KiBody0
import proofs.«139087_j75685913690395_1_alg».proof.Proof.KiBody1
import proofs.«139087_j75685913690395_1_alg».proof.Proof.Gen.KernelIdeal.Regions

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit (region 1's entry): its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- At region 1's exit: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-- After the host stretch: the return. -/
abbrev W5 : Dev nD → Valuation τ sig (Elt F) := fun c => StableHlo.after hostOps2 (W4 m ρ c)

/-! ### The arguments end as launched: no host operation writes one, and a region only reads it through an input window -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W2 m ρ c (Proc.devRef .tc main_arg0) := (W4_arr m ρ c 1).trans (((dat1 (V2 m ρ) c).arrAt_in 1 rfl _).trans (A_eq1 (V2 m ρ) c 1))
    _ = W0 m ρ c (Proc.devRef .tc main_arg0) := (W2_arr m ρ c 0).trans (((dat0 (V0 m ρ) c).arrAt_in 0 rfl _).trans (A_eq0 (V0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W2 m ρ c (Proc.devRef .tc main_arg1) := (W4_arr m ρ c 0).trans (((dat1 (V2 m ρ) c).arrAt_in 0 rfl _).trans (A_eq1 (V2 m ρ) c 0))
    _ = W0 m ρ c (Proc.devRef .tc main_arg1) := (W2_arr m ρ c 1).trans (((dat0 (V0 m ρ) c).arrAt_in 1 rfl _).trans (A_eq0 (V0 m ρ) c 1))
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W0`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m ρ) c
    unfold Pipeline.ΦA at h
    show _ ⊢ (dat0 (V0 m ρ) c).Φ 0
    iintro ⟨Hp, -, Hr⟩
    iapply h
    isplitl [Hr]; · iexact Hr
    iexact Hp
  hout c := by
    rw [Pipeline.ownSems0_none]
    have h := hout0 (V0 m ρ) c
    unfold Pipeline.ΦA at h
    show (dat0 (V0 m ρ) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (fun b => W2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W4`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m ρ) c
    unfold Pipeline.ΦA at h
    show _ ⊢ (dat1 (V2 m ρ) c).Φ 0
    iintro ⟨Hp, -, Hr⟩
    iapply h
    isplitl [Hr]; · iexact Hr
    iexact Hp
  hout c := by
    rw [Pipeline.ownSems0_none]
    have h := hout1 (V2 m ρ) c
    unfold Pipeline.ΦA at h
    show (dat1 (V2 m ρ) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (fun b => W4 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host stretch as a segment, from region 1's exit contents. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m ρ) R

/-! ## @main as segments, and the launch -/

abbrev segs : List (Pipeline.Seg (pcfgs (F := F)) adm (pdats m ρ) () defs₀ 𝒱₀ L lv) :=
  [ .region (reg0 m ρ), .region (reg1 m ρ), .host (hseg2 m ρ) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.KernelIdeal.Scan

end
-- ==== Proof.KiPieces0.lean ====
/-
  Region 0: what each control case leaves in the running-minimum scratch, and what the last case stores into the
  output block, as terms of the point's two input blocks and of what the point before left in the scratch.
-/
import proofs.«139087_j75685913690395_1_alg».proof.Proof.KiBody0
import Idealize.ShloMosaic.Lib.Pipeline.Value
import Idealize.ShloMosaic.Lib.ValueIdx

set_option maxRecDepth 16384

noncomputable section

namespace Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

/-- The two-axis offsets of a whole-block store or load are zero on every axis. -/
private theorem hz2 : (![0, 0] : Fin 2 → Nat) = fun _ => 0 := funext fun a => by fin_cases a <;> rfl
/-- The three-axis ones likewise. -/
private theorem hz3 : (![0, 0, 0] : Fin 3 → Nat) = fun _ => 0 := funext fun a => by fin_cases a <;> rfl

/-- The first database tile resets the running minimum to +∞ and lowers it by the tile's minima. -/
theorem soutA0_eq (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond0_0 i) (hc1 : ¬cond0_1 i) (x0 : Vec F S8x1024x128 .f32) (x1 : Vec F S8x128x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S8x1024) hz2, View.readCov_unit_zero (S := S8x1024) _ hz2]
  simp only [View.readAt_eq_ld, harg2.read_unread, harg3.read_unread, View.ld_unit_zero (S := S8x1024x128) hz3,
    View.ld_unit_zero (S := S8x128x128) hz3]

/-- A middle tile lowers what the scratch held by the tile's minima. -/
theorem soutB0_eq (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : ¬cond0_1 i) (x0 : Vec F S8x1024x128 .f32) (x1 : Vec F S8x128x128 .f32) (xs0 : Vec F S8x1024 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero hz2]
  simp only [View.readAt_eq_ld, harg2.read_unread, harg3.read_unread, harg5.read_unread,
    View.ld_unit_zero (S := S8x1024x128) hz3, View.ld_unit_zero (S := S8x128x128) hz3, View.ld_unit_zero (S := S8x1024) hz2]

/-- So does the last tile … -/
theorem soutC0_eq (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i) (x0 : Vec F S8x1024x128 .f32) (x1 : Vec F S8x128x128 .f32) (xs0 : Vec F S8x1024 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  try sl_unfold_words
  rw [View.canon_unit_zero hz2]
  simp only [View.readAt_eq_ld, harg2.read_unread, harg3.read_unread, harg5.read_unread,
    View.ld_unit_zero (S := S8x1024x128) hz3, View.ld_unit_zero (S := S8x128x128) hz3, View.ld_unit_zero (S := S8x1024) hz2]

/-- … which then copies the scratch into the output block. -/
theorem outC0_eq (c : Dev nD) (i : grid0.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond0_0 i) (hc1 : cond0_1 i) (x0 : Vec F S8x1024x128 .f32) (x1 : Vec F S8x128x128 .f32) (xs0 : Vec F S8x1024 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  try sl_unfold_words
  rw [View.canon_unit_zero hz2, View.readCov_unit_zero (S := S8x1024) _ hz2]
  simp only [View.readAt_eq_ld, harg2.read_unread, harg3.read_unread, harg5.read_unread,
    View.ld_unit_zero (S := S8x1024x128) hz3, View.ld_unit_zero (S := S8x128x128) hz3, View.ld_unit_zero (S := S8x1024) hz2]

end Cert.KernelIdeal.Scan

end
-- ==== Proof.KiBlocks0.lean ====
/-
  Region 0: the two input windows' blocks as rows of the arrays the region finds. At point t the query block is rows
  1024·(t / 32) … of the query array, the database block rows 128·(t % 32) … of the database array.
-/
import proofs.«139087_j75685913690395_1_alg».proof.Proof.KiBody0
import Idealize.ShloMosaic.Lib.Pipeline.Value
import Idealize.ShloMosaic.Lib.ValueIdx

set_option maxRecDepth 16384

noncomputable section

namespace Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]
variable (V : (c : Dev nD) → (b : Ref sig .tc) → Buf (Elt F) ((c : Thread nD τ).loc b))

/-- The query row that lane `r` of point `t`'s query block holds. -/
def qRow0 (t : Fin cfg0.N) (r : Fin 1024) : Fin 4096 :=
  ⟨1024 * (t.val / 32) + r.val, by have h : t.val < 128 := lt_of_lt_of_eq t.isLt N_0; have := r.isLt; omega⟩

/-- The database row that lane `l` of point `t`'s database block holds. -/
def dbRow0 (t : Fin cfg0.N) (l : Fin 128) : Fin 4096 :=
  ⟨128 * (t.val % 32) + l.val, by have := l.isLt; omega⟩

/-- The query window's block index at point t: block t / 32 along the rows, block 0 along the other two axes. -/
theorem index0_0 : ∀ t : Fin cfg0.N, win0_0.index t 0 = 0 ∧ win0_0.index t 1 = t.val / 32 ∧ win0_0.index t 2 = 0 :=
  (by decide +kernel : ∀ t : Fin grid0.N, win0_0.index t 0 = 0 ∧ win0_0.index t 1 = t.val / 32 ∧ win0_0.index t 2 = 0)

/-- The database window's block index at point t: block t % 32 along the rows, block 0 along the other two axes. -/
theorem index0_1 : ∀ t : Fin cfg0.N, win0_1.index t 0 = 0 ∧ win0_1.index t 1 = t.val % 32 ∧ win0_1.index t 2 = 0 :=
  (by decide +kernel : ∀ t : Fin grid0.N, win0_1.index t 0 = 0 ∧ win0_1.index t 1 = t.val % 32 ∧ win0_1.index t 2 = 0)

theorem iblk0_q (c : Dev nD) (t : Fin cfg0.N) (n : Fin 8) (r : Fin 1024) (d : Fin 128) :
    (iblk0 V c 0 t : Vec F S8x1024x128 .f32) (ix3 n r d) = (V c main_arg0 : S8x4096x128.Idx → Elt F .f32) (ix3 n (qRow0 t r) d) := by
  obtain ⟨h0, h1, h2⟩ := index0_0 t
  unfold iblk0
  rw [View.read_apply]
  show V c main_arg0 _ = V c main_arg0 _
  refine congrArg _ (funext fun a => Fin.ext ?_)
  match a with
  | ⟨0, _⟩ => show win0_0.index t 0 * 8 + 1 * n.val = n.val; rw [h0]; omega
  | ⟨1, _⟩ => show win0_0.index t 1 * 1024 + 1 * r.val = 1024 * (t.val / 32) + r.val; rw [h1]; omega
  | ⟨2, _⟩ => show win0_0.index t 2 * 128 + 1 * d.val = d.val; rw [h2]; omega

theorem iblk0_db (c : Dev nD) (t : Fin cfg0.N) (n : Fin 8) (l : Fin 128) (d : Fin 128) :
    (iblk0 V c 1 t : Vec F S8x128x128 .f32) (ix3 n l d) = (V c main_arg1 : S8x4096x128.Idx → Elt F .f32) (ix3 n (dbRow0 t l) d) := by
  obtain ⟨h0, h1, h2⟩ := index0_1 t
  unfold iblk0
  rw [View.read_apply]
  show V c main_arg1 _ = V c main_arg1 _
  refine congrArg _ (funext fun a => Fin.ext ?_)
  match a with
  | ⟨0, _⟩ => show win0_1.index t 0 * 8 + 1 * n.val = n.val; rw [h0]; omega
  | ⟨1, _⟩ => show win0_1.index t 1 * 128 + 1 * l.val = 128 * (t.val % 32) + l.val; rw [h1]; omega
  | ⟨2, _⟩ => show win0_1.index t 2 * 128 + 1 * d.val = d.val; rw [h2]; omega

end Cert.KernelIdeal.Scan

end
-- ==== Proof.Spec.lean ====
/-
  The mathematics both programs compute, stated once over plain index functions (no program is imported).

  For two clouds of 4096 points in 128 coordinates per batch entry, the cost of a pair of points is the clamped
  Euclidean distance written through the expansion |a|² + |b|² − 2·⟨a, b⟩: `cost a b = √(max (|a|² + |b|² − 2⟨a,b⟩) 0)`.
  `nearest q db` gives, for every point of `q`, the least cost to a point of `db`: a minimum over the 4096 points of
  `db`, taken from +∞. The constant 2 is kept as the f32 word both programs print.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- A batch of point clouds: 8 entries, 4096 points, 128 coordinates. -/
abbrev Pts : Shape := ⟨3, ![8, 4096, 128]⟩
/-- One number per point. -/
abbrev Rows : Shape := ⟨2, ![8, 4096]⟩

/-- The word of the constant 2 as both programs print it. -/
abbrev two : EReal := Ideal.ofBits .f32 0x40000000#32

/-- The clamped distance of two points through the expansion of the square. -/
def cost (a b : Fin 128 → EReal) : EReal :=
  Ideal.sqrt (max (((∑ d : Fin 128, a d * a d) + ∑ d : Fin 128, b d * b d) - two * ∑ d : Fin 128, a d * b d) 0)

/-- Point `p` of batch entry `n`, as its 128 coordinates. -/
def pt (x : Pts.Idx → EReal) (n : Fin 8) (p : Fin 4096) : Fin 128 → EReal := fun d => x (ix3 n p d)

/-- The least cost from point `p` of `q` to a point of `db`, from +∞. -/
def nearestAt (q db : Pts.Idx → EReal) (n : Fin 8) (p : Fin 4096) : EReal :=
  Finset.univ.fold min ⊤ (fun k : Fin 4096 => cost (pt q n p) (pt db n k))

/-- The same as an array over the points of `q`. -/
def nearest (q db : Pts.Idx → EReal) : Rows.Idx → EReal := fun i => nearestAt q db (i 0) (i 1)

theorem nearest_ix2 (q db : Pts.Idx → EReal) (n : Fin 8) (p : Fin 4096) :
    nearest q db (ix2 n p) = nearestAt q db n p := rfl

/-- The cost does not depend on the order of the pair: sums and products commute on the extended reals. -/
theorem cost_comm (a b : Fin 128 → EReal) : cost a b = cost b a := by
  unfold cost
  rw [add_comm (∑ d : Fin 128, a d * a d), show (∑ d : Fin 128, a d * b d) = ∑ d : Fin 128, b d * a d from
    Finset.sum_congr rfl fun d _ => mul_comm (a d) (b d)]

end Cert.Chamfer

end
-- ==== Proof.TileMin.lean ====
/-
  The kernel body's arithmetic read at an index, at the ideal values (every float an extended real).

  One step of the kernel holds a block of 1024 query points and a block of 128 database points per batch entry
  (128 coordinates each) and a running minimum per query point. It forms, for every pair (r, q), the clamped
  distance through the expansion of the square, √(max (|a_r|² + |b_q|² − 2·⟨a_r, b_q⟩) 0): the two squared norms as
  sums over the coordinates, spread over the pairs; the inner products as one batched product into a zero
  accumulator (the narrowing of its operands is the identity on extended reals). It then takes the minimum over the
  128 database points from +∞ and the minimum of that with the running value. Read at (n, r) this is
  `min (acc (n, r)) (min over q of cost a_r b_q)` with `cost` the specification's. The first step's running value
  is the splat of +∞.
-/
import proofs.«139087_j75685913690395_1_alg».proof.Proof.Spec
import proofs.«139087_j75685913690395_1_alg».proof.Proof.Gen.KernelIdeal.Skeleton
import Idealize.ShloMosaic.Lib.ValueLayout
import Idealize.ShloMosaic.Lib.Pipeline.Value
import Idealize.ShloMosaic.Lib.ValueIdx
import Idealize.ShloMosaic.PureOps.Ideal
import Idealize.ShloMosaic.PureOps.Ideal.Laws
import Idealize.ShloMosaic.PureOps.Reduce

noncomputable section

open scoped BigOperators

namespace Cert.Chamfer.Tile

open Idealize.ShloMosaic Idealize.ShloMosaic.ValueIdx Cert.KernelIdeal

/-! ## The word of +∞ -/

/-- The f32 word 0x7F800000 (sign 0, exponent all ones, significand 0) denotes +∞. -/
theorem top_word : Ideal.ofBits .f32 0x7F800000#32 = (⊤ : EReal) := by
  simp [Ideal.ofBits, Ideal.ieee]

/-! ## Sums and minima over the last axis -/

/-- A sum over the last axis of an [8, P, 128] array, read at (n, p): the sum over the 128 coordinates. -/
theorem rowSum_apply {P : Nat} (v : FVec Ideal ⟨3, ![8, P, 128]⟩ .f32)
    (h : Shape.Reduces ⟨3, ![8, P, 128]⟩ [2] ⟨2, ![8, P]⟩) (hφ : FKind.Formats .f32)
    (hacc : (0x00000000#32 : BitVec 32) = FKind.add.neutral .f32 hφ) (n : Fin 8) (p : Fin P) :
    multiReduction .add [2] ⟨2, ![8, P]⟩ v 0x00000000#32 h hφ hacc (ix2 n p) = ∑ d : Fin 128, v (ix3 n p d) := by
  refine (Ideal.multiReduction_add_single v _ h hφ hacc (ix2 n p)).trans ?_
  refine Finset.sum_congr rfl fun d _ => congrArg v (funext fun a => Fin.ext ?_)
  match a with
  | ⟨0, _⟩ => rfl
  | ⟨1, _⟩ => rfl
  | ⟨2, _⟩ => rfl

/-- A minimum over the last axis of an [8, 1024, 128] array from +∞, read at (n, r): the fold of `min` from ⊤ over
    the 128 last coordinates. The minimum of extended reals commutes and associates, so the order is immaterial. -/
theorem laneMin_apply (v : FVec Ideal S8x1024x128 .f32)
    (h : Shape.Reduces S8x1024x128 [2] S8x1024) (hφ : FKind.Formats .f32)
    (hacc : (0x7F800000#32 : BitVec 32) = FKind.minimumf.neutral .f32 hφ) (n : Fin 8) (r : Fin 1024) :
    multiReduction .minimumf [2] S8x1024 v 0x7F800000#32 h hφ hacc (ix2 n r)
      = Finset.univ.fold min (⊤ : EReal) (fun q : Fin 128 => v (ix3 n r q)) := by
  rw [multiReduction_minimumf_eq_fold]
  refine (h.fold_filter_drop_single _ _ v (ix2 n r)).trans ?_
  have e2 : (v ∘ h.lift (ix2 n r)) = fun q : Fin 128 => v (ix3 n r q) :=
    funext fun q => congrArg v (funext fun a => Fin.ext (by
      match a with
      | ⟨0, _⟩ => rfl
      | ⟨1, _⟩ => rfl
      | ⟨2, _⟩ => rfl))
  rw [e2]
  show Finset.fold min (Ideal.ofBits .f32 0x7F800000#32) _ _ = _
  rw [top_word]
  rfl

/-! ## The batched product read at an index -/

/-- The kernel's contraction record: batch axis 0 of both operands, contracting axis 2 of both; the result's axes are
    (batch, first operand's axis 1, second operand's axis 1). -/
abbrev D : DotDims S8x1024x128 S8x128x128 S8x1024x128 := dot_S8x1024x128_S8x128x128_S8x1024x128_2_2_1_1_0_0

/-- The first operand's index at result index `i` and contraction index `q`: the batch coordinate, … -/
theorem lhs_0 (i : S8x1024x128.Idx) (q : D.contr.Idx) : (D.lhsIdx i q 0).val = (i 0).val := by
  unfold DotDims.lhsIdx
  rw [dif_pos (show (0 : Fin S8x1024x128.rank) ∈ D.lhsBatch by decide)]
  rfl
/-- … the result's middle coordinate, … -/
theorem lhs_1 (i : S8x1024x128.Idx) (q : D.contr.Idx) : (D.lhsIdx i q 1).val = (i 1).val := by
  unfold DotDims.lhsIdx
  rw [dif_neg (show ¬(1 : Fin S8x1024x128.rank) ∈ D.lhsBatch by decide),
    dif_pos (show (1 : Fin S8x1024x128.rank) ∈ D.lhsNonContracting by decide)]
  rfl
/-- … and the contraction coordinate. -/
theorem lhs_2 (i : S8x1024x128.Idx) (q : D.contr.Idx) : (D.lhsIdx i q 2).val = (q ⟨0, by decide⟩).val :=
  D.lhsIdx_val_of_single rfl i q
/-- The second operand's index: the batch coordinate, … -/
theorem rhs_0 (i : S8x1024x128.Idx) (q : D.contr.Idx) : (D.rhsIdx i q 0).val = (i 0).val := by
  unfold DotDims.rhsIdx
  rw [dif_pos (show (0 : Fin S8x128x128.rank) ∈ D.rhsBatch by decide)]
  rfl
/-- … the result's last coordinate, … -/
theorem rhs_1 (i : S8x1024x128.Idx) (q : D.contr.Idx) : (D.rhsIdx i q 1).val = (i 2).val := by
  unfold DotDims.rhsIdx
  rw [dif_neg (show ¬(1 : Fin S8x128x128.rank) ∈ D.rhsBatch by decide),
    dif_pos (show (1 : Fin S8x128x128.rank) ∈ D.rhsNonContracting by decide)]
  rfl
/-- … and the contraction coordinate. -/
theorem rhs_2 (i : S8x1024x128.Idx) (q : D.contr.Idx) : (D.rhsIdx i q 2).val = (q ⟨0, by decide⟩).val :=
  D.rhsIdx_val_of_single rfl i q

/-- The products into a zero accumulator, read at (n, r, q): the inner product of point r of the first block with
    point q of the second over the 128 coordinates. The contraction index has one axis; the sum is re-indexed through
    its one coordinate. -/
theorem matmul_ix {φ₁ φ₂ : FTy} (a : FVec Ideal S8x1024x128 φ₁) (b : FVec Ideal S8x128x128 φ₂)
    (n : Fin 8) (r : Fin 1024) (q : Fin 128) :
    matmul D none a b (constant S8x1024x128 .f32 0x00000000#32) (ix3 n r q)
      = ∑ d : Fin 128, a (ix3 n r d) * b (ix3 n q d) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix3 n r q) ((contrEquiv1 D 128 rfl rfl).symm k) = ix3 n r k := funext fun c => Fin.ext (by
    match c with
    | ⟨0, _⟩ => exact lhs_0 _ _
    | ⟨1, _⟩ => exact lhs_1 _ _
    | ⟨2, _⟩ => exact (lhs_2 _ _).trans hk)
  have er : D.rhsIdx (ix3 n r q) ((contrEquiv1 D 128 rfl rfl).symm k) = ix3 n q k := funext fun c => Fin.ext (by
    match c with
    | ⟨0, _⟩ => exact rhs_0 _ _
    | ⟨1, _⟩ => exact rhs_1 _ _
    | ⟨2, _⟩ => exact (rhs_2 _ _).trans hk)
  rw [el, er]

/-! ## The two norm vectors spread over the pairs -/

section Spread
variable {α : Type}

/-- One number per point of the first block, spread along the last axis ([8,1024] viewed [8,1024,1], repeated to
    [8,1024,128]): at (n, r, q) the number of point (n, r). -/
theorem spreadRow_apply (w : S8x1024.Idx → α) (h1 : S8x1024.ShapeCasts S8x1024x1)
    (h2 : S8x1024x1.Broadcasts S8x1024x128) (n : Fin 8) (r : Fin 1024) (q : Fin 128) :
    broadcastTo S8x1024x128 (shapeCast S8x1024x1 w h1) h2 (ix3 n r q) = w (ix2 n r) := by
  refine (broadcastTo_apply _ h2 (ix3 n r q) (ix3 n r (0 : Fin 1)) fun a => ?_).trans ?_
  · match a with
    | ⟨0, _⟩ => show n.val = if (8 : Nat) = 1 then 0 else n.val; rw [if_neg (by decide)]
    | ⟨1, _⟩ => show r.val = if (1024 : Nat) = 1 then 0 else r.val; rw [if_neg (by decide)]
    | ⟨2, _⟩ => show 0 = if (1 : Nat) = 1 then 0 else q.val; rw [if_pos rfl]
  · exact shapeCast_apply w h1 _ _ (by
      rw [Shape.rowMajor_val_three, Shape.rowMajor_val_two]
      show n.val * 1024 + r.val = (n.val * 1024 + r.val) * 1 + 0
      omega)

/-- One number per point of the second block, spread along the middle axis ([8,128] viewed [8,1,128], repeated to
    [8,1024,128]): at (n, r, q) the number of point (n, q). -/
theorem spreadCol_apply (w : S8x128.Idx → α) (h1 : S8x128.ShapeCasts S8x1x128)
    (h2 : S8x1x128.Broadcasts S8x1024x128) (n : Fin 8) (r : Fin 1024) (q : Fin 128) :
    broadcastTo S8x1024x128 (shapeCast S8x1x128 w h1) h2 (ix3 n r q) = w (ix2 n q) := by
  refine (broadcastTo_apply _ h2 (ix3 n r q) (ix3 n (0 : Fin 1) q) fun a => ?_).trans ?_
  · match a with
    | ⟨0, _⟩ => show n.val = if (8 : Nat) = 1 then 0 else n.val; rw [if_neg (by decide)]
    | ⟨1, _⟩ => show 0 = if (1 : Nat) = 1 then 0 else r.val; rw [if_pos rfl]
    | ⟨2, _⟩ => show q.val = if (128 : Nat) = 1 then 0 else q.val; rw [if_neg (by decide)]
  · exact shapeCast_apply w h1 _ _ (by
      rw [Shape.rowMajor_val_three, Shape.rowMajor_val_two]
      show n.val * 128 + q.val = (n.val * 1 + 0) * 128 + q.val
      omega)

end Spread

/-! ## The clamped distance at a pair -/

/-- The elementwise part, at any index: √(max ((A + B) − 2·M) 0), the constant 2 kept as its f32 word and the
    zero word read as the extended real 0. -/
theorem dist_apply (A B M : FVec Ideal S8x1024x128 .f32) (i : S8x1024x128.Idx) :
    sqrt (maximumf (subf (addf A B) (mulf (broadcast S8x1024x128 (Scalar.ofBits .f32 0x40000000#32)) M))
        (broadcast S8x1024x128 (Scalar.ofBits .f32 0x00000000#32))) i
      = Ideal.sqrt (max ((A i + B i) - Ideal.ofBits .f32 0x40000000#32 * M i) 0) := by
  show Ideal.sqrt (max ((A i + B i) - Ideal.ofBits .f32 0x40000000#32 * M i) (Ideal.ofBits .f32 0x00000000#32)) = _
  rw [Ideal.ofBits_zero_f32]

/-! ## The payloads -/

/-- The first step's running value: +∞ everywhere. -/
theorem pay1_apply (j : S8x1024.Idx) : Gen.k0_pay1 (F := Ideal) j = ⊤ := by
  unfold Gen.k0_pay1
  rw [shapeCast_self]
  exact top_word

/-- One step at (n, r): the running value's minimum with the least cost from query point r to the block's 128
    database points. -/
theorem pay2_apply (x0 : Vec Ideal S8x1024x128 .f32) (x1 : Vec Ideal S8x128x128 .f32) (acc : Vec Ideal S8x1024 .f32)
    (n : Fin 8) (r : Fin 1024) :
    Gen.k0_pay2 (F := Ideal) x0 x1 acc (ix2 n r)
      = min (acc (ix2 n r)) (Finset.univ.fold min ⊤ fun q : Fin 128 =>
          Cert.Chamfer.cost (fun d : Fin 128 => x0 (ix3 n r d)) (fun d : Fin 128 => x1 (ix3 n q d))) := by
  unfold Gen.k0_pay2
  dsimp only
  rw [shapeCast_self]
  refine (minimumf_apply _ _ _).trans ?_
  refine congrArg (min (acc (ix2 n r))) ?_
  refine (laneMin_apply _ _ _ _ n r).trans ?_
  refine congrArg (fun f => Finset.fold min (⊤ : EReal) f Finset.univ) (funext fun q => ?_)
  refine (dist_apply _ _ _ _).trans ?_
  refine congrArg Ideal.sqrt (congrArg (fun t : EReal => max t 0) ?_)
  refine congrArg₂ (fun s t : EReal => s - t) (congrArg₂ (fun s t : EReal => s + t) ?_ ?_)
    (congrArg (fun t : EReal => Ideal.ofBits .f32 0x40000000#32 * t) ?_)
  · exact (spreadRow_apply _ _ _ n r q).trans (rowSum_apply _ _ _ _ n r)
  · exact (spreadCol_apply _ _ _ n r q).trans (rowSum_apply _ _ _ _ n q)
  · exact matmul_ix _ _ n r q

/-- The second launch's payloads are the first's. -/
theorem pay1_eq : @Gen.k1_pay1 = @Gen.k0_pay1 := rfl
theorem pay2_eq : @Gen.k1_pay2 = @Gen.k0_pay2 := rfl

end Cert.Chamfer.Tile

end
-- ==== Proof.MinTiles.lean ====
import Mathlib.Data.Finset.Fold
import Mathlib.Data.EReal.Basic
import Mathlib.Data.Fintype.Basic

/-!
# A running minimum taken tile by tile

A minimum over 4096 candidates, indexed by `k = 128 * j + q` with `j < 32` and `q < 128`,
is the same as the running minimum that starts at `+∞` and is lowered by the minimum of each
tile of 128 candidates in turn.  Everything is order algebra in the extended reals: an element
is a lower bound of a finite `min`-fold exactly when it is a lower bound of the start value and
of every candidate, and two elements with the same lower bounds are equal.
-/

namespace Cert.Chamfer.Tiles

/-- the minimum over one tile's 128 candidates, from +∞ -/
noncomputable def tileMin (f : ℕ → Fin 128 → EReal) (j : ℕ) : EReal :=
  Finset.univ.fold min ⊤ (fun q : Fin 128 => f j q)

/-- the running minimum after tile j: tile 0 lowers +∞, each later tile lowers what the tile
before left -/
noncomputable def runMin (f : ℕ → Fin 128 → EReal) : ℕ → EReal
  | 0 => min ⊤ (tileMin f 0)
  | j + 1 => min (runMin f j) (tileMin f (j + 1))

/-- lower bounds of a tile minimum: exactly the lower bounds of all its 128 candidates -/
theorem le_tileMin (f : ℕ → Fin 128 → EReal) (j : ℕ) (c : EReal) :
    c ≤ tileMin f j ↔ ∀ q : Fin 128, c ≤ f j q := by
  unfold tileMin
  rw [Finset.le_fold_min]
  constructor
  · intro h q
    exact h.2 q (Finset.mem_univ q)
  · intro h
    exact ⟨le_top, fun q _ => h q⟩

/-- lower bounds of the running minimum after tile j: exactly the lower bounds of every
candidate of every tile up to j -/
theorem le_runMin (f : ℕ → Fin 128 → EReal) (c : EReal) :
    ∀ j : ℕ, c ≤ runMin f j ↔ ∀ i : ℕ, i ≤ j → ∀ q : Fin 128, c ≤ f i q
  | 0 => by
    rw [runMin, le_min_iff, le_tileMin]
    constructor
    · rintro ⟨_, h⟩ i hi q
      have hi0 : i = 0 := Nat.le_zero.mp hi
      subst hi0
      exact h q
    · intro h
      exact ⟨le_top, fun q => h 0 (Nat.le_refl 0) q⟩
  | j + 1 => by
    rw [runMin, le_min_iff, le_runMin f c j, le_tileMin]
    constructor
    · rintro ⟨h1, h2⟩ i hi q
      rcases Nat.lt_or_ge i (j + 1) with hlt | hge
      · exact h1 i (Nat.lt_succ_iff.mp hlt) q
      · have hij : i = j + 1 := Nat.le_antisymm hi hge
        subst hij
        exact h2 q
    · intro h
      exact ⟨fun i hi q => h i (Nat.le_succ_of_le hi) q, fun q => h (j + 1) (Nat.le_refl _) q⟩

/-- after the last of the 32 tiles the running minimum is the minimum over all 4096 candidates -/
theorem runMin_last (f : ℕ → Fin 128 → EReal) :
    runMin f 31 = Finset.univ.fold min ⊤
      (fun k : Fin 4096 => f (k.val / 128) ⟨k.val % 128, Nat.mod_lt _ (by norm_num)⟩) := by
  apply eq_of_forall_le_iff
  intro c
  rw [le_runMin, Finset.le_fold_min]
  constructor
  · intro h
    refine ⟨le_top, fun k _ => ?_⟩
    have hk : k.val / 128 ≤ 31 := by
      have := k.isLt
      omega
    exact h (k.val / 128) hk _
  · rintro ⟨_, h⟩ i hi q
    have hlt : 128 * i + q.val < 4096 := by
      have := q.isLt
      omega
    have hdiv : (128 * i + q.val) / 128 = i := by
      have := q.isLt
      omega
    have hmod : (128 * i + q.val) % 128 = q.val := by
      have := q.isLt
      omega
    have key := h ⟨128 * i + q.val, hlt⟩ (Finset.mem_univ _)
    have hq : (⟨(128 * i + q.val) % 128, Nat.mod_lt _ (by norm_num)⟩ : Fin 128) = q :=
      Fin.ext hmod
    simp only [hdiv] at key
    rw [hq] at key
    exact key

end Cert.Chamfer.Tiles
-- ==== Proof.ScanSpec.lean ====
/-
  The nearest-neighbour minimum as the kernel computes it: the 4096 database points are met 128 at a time, and the
  running minimum after the last of the 32 tiles is the minimum over all of them.
-/
import proofs.«139087_j75685913690395_1_alg».proof.Proof.Spec
import proofs.«139087_j75685913690395_1_alg».proof.Proof.MinTiles

noncomputable section

namespace Cert.Chamfer

open Idealize.ShloMosaic Idealize.ShloMosaic.ValueIdx Cert.Chamfer.Tiles

/-- The costs from point `p` of `q` to the database, laid out by tile `j` and lane `l`: the database point is 128·j + l
    (read modulo 4096, so that the family is defined for every natural `j`). -/
def tileCosts (q db : Pts.Idx → EReal) (n : Fin 8) (p : Fin 4096) : ℕ → Fin 128 → EReal :=
  fun j l => cost (pt q n p) (pt db n ⟨(128 * j + l.val) % 4096, Nat.mod_lt _ (by norm_num)⟩)

/-- The minimum over all 4096 database points is the running minimum after the 32nd tile. -/
theorem nearestAt_eq_runMin (q db : Pts.Idx → EReal) (n : Fin 8) (p : Fin 4096) :
    nearestAt q db n p = runMin (tileCosts q db n p) 31 := by
  rw [runMin_last]
  unfold nearestAt tileCosts
  refine congrArg (fun g => Finset.univ.fold min ⊤ g) (funext fun k => ?_)
  refine congrArg (fun k' => cost (pt q n p) (pt db n k')) (Fin.ext ?_)
  show k.val = (128 * (k.val / 128) + k.val % 128) % 4096
  have := k.isLt
  omega

end Cert.Chamfer

end
-- ==== Proof.KiValue0.lean ====
/-
  Region 0 at the ideal instance: after point t = 32·i + j the scratch holds, for query row 1024·i + r of batch entry
  n, the running minimum of the costs to the database tiles 0 … j; the last tile's point stores that — the minimum
  over the whole database — into the output block.
-/
import proofs.«139087_j75685913690395_1_alg».proof.Proof.KiPieces0
import proofs.«139087_j75685913690395_1_alg».proof.Proof.KiBlocks0
import proofs.«139087_j75685913690395_1_alg».proof.Proof.TileMin
import proofs.«139087_j75685913690395_1_alg».proof.Proof.ScanSpec
import Idealize.ShloMosaic.Lib.ValueIdx

set_option maxRecDepth 16384

noncomputable section

namespace Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

open Cert.Chamfer Cert.Chamfer.Tiles

variable (V : (c : Dev nD) → (b : Ref sig .tc) → Buf (Elt Ideal) ((c : Thread nD τ).loc b))

/-- The minimum over point `t`'s database block of the costs from lane `r` of its query block is the minimum over
    database tile `t % 32` of the costs from query row `qRow0 t r`: the two blocks are rows of the two arrays. -/
theorem tile_at (c : Dev nD) (t : Fin cfg0.N) (n : Fin 8) (r : Fin 1024) :
    (Finset.univ.fold min (⊤ : EReal) fun q : Fin 128 =>
        cost (fun d : Fin 128 => (iblk0 V c 0 t : Vec Ideal S8x1024x128 .f32) (ix3 n r d))
          (fun d : Fin 128 => (iblk0 V c 1 t : Vec Ideal S8x128x128 .f32) (ix3 n q d)))
      = tileMin (tileCosts (V c main_arg0) (V c main_arg1) n (qRow0 t r)) (t.val % 32) := by
  unfold tileMin tileCosts
  refine congrArg (fun g => Finset.fold min (⊤ : EReal) g Finset.univ) (funext fun q => ?_)
  refine congrArg₂ cost (funext fun d => iblk0_q V c t n r d) (funext fun d => ?_)
  refine (iblk0_db V c t n q d).trans ?_
  refine congrArg (fun p : Fin 4096 => (V c main_arg1 : S8x4096x128.Idx → Elt Ideal .f32) (ix3 n p d)) (Fin.ext ?_)
  show 128 * (t.val % 32) + q.val = (128 * (t.val % 32) + q.val) % 4096
  have := q.isLt
  omega

/-- The scratch after the point at position `k`, by induction on `k`: the first tile of a query tile starts from +∞;
    a later tile lowers what the point before (same query tile, the database tile before) left. -/
theorem scratch_nat (c : Dev nD) : ∀ (k : ℕ) (hk : k < cfg0.N) (n : Fin 8) (r : Fin 1024),
    (outsAt0 V c k hk).2 (ix2 n r)
      = runMin (tileCosts (V c main_arg0) (V c main_arg1) n (qRow0 ⟨k, hk⟩ r)) (k % 32) := by
  intro k
  induction k using Nat.strong_induction_on with
  | _ k ih =>
    intro hk n r
    have hN : k < 128 := lt_of_lt_of_eq hk N_0
    by_cases h0 : k % 32 = 0
    · have h1 : ¬k % 32 = 31 := by omega
      rw [outsAt0_A V c ⟨k, hk⟩ h0 h1]
      dsimp only
      refine (congrFun (soutA0_eq (F := Ideal) c (grid0.coords ⟨k, hk⟩) (ms0_0 ⟨k, hk⟩) (hs0_0 ⟨k, hk⟩) (ms0_1 ⟨k, hk⟩) (hs0_1 ⟨k, hk⟩) (ms0_2 ⟨k, hk⟩) (hs0_2 ⟨k, hk⟩) scM0_0 (Memref.isWhole_whole _) ((hcond0_0 ⟨k, hk⟩).mpr h0) (fun h => h1 ((hcond0_1 ⟨k, hk⟩).mp h)) (iblk0 V c 0 ⟨k, hk⟩) (iblk0 V c 1 ⟨k, hk⟩)) (ix2 n r)).trans ?_
      refine (Cert.Chamfer.Tile.pay2_apply _ _ _ n r).trans ?_
      refine (congrArg₂ min (Cert.Chamfer.Tile.pay1_apply (ix2 n r)) (tile_at V c ⟨k, hk⟩ n r)).trans ?_
      rw [h0]
      rfl
    · have hk1 : k - 1 < cfg0.N := by omega
      have ihk := ih (k - 1) (by omega) hk1 n r
      have hq : qRow0 ⟨k - 1, hk1⟩ r = qRow0 ⟨k, hk⟩ r := Fin.ext (by
        show 1024 * ((k - 1) / 32) + r.val = 1024 * (k / 32) + r.val
        omega)
      rw [hq] at ihk
      obtain ⟨j, hj⟩ : ∃ j, k % 32 = j + 1 := ⟨k % 32 - 1, by omega⟩
      have hj' : (k - 1) % 32 = j := by omega
      by_cases h1 : k % 32 = 31
      · rw [outsAt0_C V c ⟨k, hk⟩ h0 h1]
        dsimp only
        refine (congrFun (soutC0_eq (F := Ideal) c (grid0.coords ⟨k, hk⟩) (ms0_0 ⟨k, hk⟩) (hs0_0 ⟨k, hk⟩) (ms0_1 ⟨k, hk⟩) (hs0_1 ⟨k, hk⟩) (ms0_2 ⟨k, hk⟩) (hs0_2 ⟨k, hk⟩) scM0_0 (Memref.isWhole_whole _) (fun h => h0 ((hcond0_0 ⟨k, hk⟩).mp h)) ((hcond0_1 ⟨k, hk⟩).mpr h1) (iblk0 V c 0 ⟨k, hk⟩) (iblk0 V c 1 ⟨k, hk⟩) (outsAt0 V c (k - 1) hk1).2) (ix2 n r)).trans ?_
        refine (Cert.Chamfer.Tile.pay2_apply _ _ _ n r).trans ?_
        refine (congrArg₂ min ihk (tile_at V c ⟨k, hk⟩ n r)).trans ?_
        rw [hj, hj']
        rfl
      · rw [outsAt0_B V c ⟨k, hk⟩ h0 h1]
        dsimp only
        refine (congrFun (soutB0_eq (F := Ideal) c (grid0.coords ⟨k, hk⟩) (ms0_0 ⟨k, hk⟩) (hs0_0 ⟨k, hk⟩) (ms0_1 ⟨k, hk⟩) (hs0_1 ⟨k, hk⟩) (ms0_2 ⟨k, hk⟩) (hs0_2 ⟨k, hk⟩) scM0_0 (Memref.isWhole_whole _) (fun h => h0 ((hcond0_0 ⟨k, hk⟩).mp h)) (fun h => h1 ((hcond0_1 ⟨k, hk⟩).mp h)) (iblk0 V c 0 ⟨k, hk⟩) (iblk0 V c 1 ⟨k, hk⟩) (outsAt0 V c (k - 1) hk1).2) (ix2 n r)).trans ?_
        refine (Cert.Chamfer.Tile.pay2_apply _ _ _ n r).trans ?_
        refine (congrArg₂ min ihk (tile_at V c ⟨k, hk⟩ n r)).trans ?_
        rw [hj, hj']
        rfl

/-- The scratch after point `t`, entry (n, r): the running minimum over the database tiles met so far. -/
theorem scratch_at (c : Dev nD) (t : Fin cfg0.N) (n : Fin 8) (r : Fin 1024) :
    (outsAt0 V c t.val t.isLt).2 (ix2 n r)
      = runMin (tileCosts (V c main_arg0) (V c main_arg1) n (qRow0 t r)) (t.val % 32) :=
  scratch_nat V c t.val t.isLt n r

/-- What the last tile's point stores into the output block: the minimum over the whole database. -/
theorem out_at (c : Dev nD) (t : Fin cfg0.N) (h : t.val % 32 = 31) (n : Fin 8) (r : Fin 1024) :
    (outsAt0 V c t.val t.isLt).1 (ix2 n r) = nearestAt (V c main_arg0) (V c main_arg1) n (qRow0 t r) := by
  have h0 : ¬t.val % 32 = 0 := by omega
  have e1 : (outsAt0 V c t.val t.isLt).1 = (outsAt0 V c t.val t.isLt).2 := by
    rw [outsAt0_C V c t h0 h]
    dsimp only
    exact (outC0_eq (F := Ideal) c (grid0.coords t) (ms0_0 t) (hs0_0 t) (ms0_1 t) (hs0_1 t) (ms0_2 t) (hs0_2 t) scM0_0 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2).trans
      (soutC0_eq (F := Ideal) c (grid0.coords t) (ms0_0 t) (hs0_0 t) (ms0_1 t) (hs0_1 t) (ms0_2 t) (hs0_2 t) scM0_0 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2).symm
  rw [e1, scratch_at V c t n r, h]
  exact (nearestAt_eq_runMin _ _ n _).symm

end Cert.KernelIdeal.Scan

end
-- ==== Proof.KiArray0.lean ====
/-
  Region 0 at the ideal instance: the output array after the run. The four write-backs (one per query tile, at the last
  database tile's point) are the four row blocks of one array, the nearest-neighbour distances; they tile it.
-/
import proofs.«139087_j75685913690395_1_alg».proof.Proof.KiValue0
import Idealize.ShloMosaic.Lib.ValueIdx

set_option maxRecDepth 16384

noncomputable section

namespace Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

open Cert.Chamfer

variable (V : (c : Dev nD) → (b : Ref sig .tc) → Buf (Elt Ideal) ((c : Thread nD τ).loc b))

/-- The output window's block index at point t: block 0 along the batch entries, block t / 32 along the rows. -/
theorem index0_2 : ∀ t : Fin cfg0.N, win0_2.index t 0 = 0 ∧ win0_2.index t 1 = t.val / 32 :=
  (by decide +kernel : ∀ t : Fin grid0.N, win0_2.index t 0 = 0 ∧ win0_2.index t 1 = t.val / 32)

/-- What a point of the last database tile writes back is its row block of the nearest-neighbour array: entry (n, r)
    of the block is row 1024·(t / 32) + r of batch entry n. -/
theorem flushed0_2_eq (c : Dev nD) (t : Fin cfg0.N) (hf : (cfg0.win 2).flush t = true) :
    (dat0 V c).flushed 2 t
      = ((cfg0.win 2).blk t).view.read (Elt Ideal) (nearest (V c main_arg0) (V c main_arg1)) := by
  have h31 : t.val % 32 = 31 := (flush0_2 t).mp hf
  obtain ⟨h0, h1⟩ := index0_2 t
  funext y
  obtain ⟨n, r, rfl⟩ : ∃ (n : Fin 8) (r : Fin 1024), y = ix2 n r := ⟨y 0, y 1, eq_ix2 (n0 := 8) (n1 := 1024) y⟩
  show (cfg0.win 2).cut (grid0.coords t) ((dat0 V c).after 2 t) (ix2 n r) = _
  rw [after0_2, View.read_apply]
  have he : ((cfg0.win 2).blk t).view.emb (ix2 n r) = (ix2 n (qRow0 t r) : S8x4096.Idx) :=
    funext fun a => Fin.ext (by
      match a with
      | ⟨0, _⟩ => show win0_2.index t 0 * 8 + 1 * n.val = n.val; rw [h0]; omega
      | ⟨1, _⟩ => show win0_2.index t 1 * 1024 + 1 * r.val = 1024 * (t.val / 32) + r.val; rw [h1]; omega)
  rw [he, nearest_ix2]
  exact out_at V c t h31 n r

/-- The output array ends holding the nearest-neighbour distances from the query array's points to the database array's. -/
theorem final0 (c : Dev nD) :
    ((dat0 V c).arrAt 2 cfg0.N : S8x4096.Idx → EReal) = nearest (V c main_arg0) (V c main_arg1) :=
  (dat0 V c).arrAt_eq_of_cover 2 (nearest (V c main_arg0) (V c main_arg1)) (flushed0_2_eq V c) fun i => by
    have hi0 : (i 0 : Nat) < 8 := (i 0).isLt
    have hi1 : (i 1 : Nat) < 4096 := (i 1).isLt
    have hN : cfg0.N = 128 := N_0
    have ht : 32 * ((i 1 : Nat) / 1024) + 31 < cfg0.N := by rw [hN]; omega
    obtain ⟨h0, h1⟩ := index0_2 ⟨32 * ((i 1 : Nat) / 1024) + 31, ht⟩
    refine ⟨⟨32 * ((i 1 : Nat) / 1024) + 31, ht⟩, (flush0_2 _).mpr (by show (32 * ((i 1 : Nat) / 1024) + 31) % 32 = 31; omega), ?_⟩
    show i ∈ ((View.whole main_v0).slice (win0_2.rect ⟨32 * ((i 1 : Nat) / 1024) + 31, ht⟩)).set
    rw [View.set_slice_whole, Rect.mem_set_unit]
    intro a
    match a with
    | ⟨0, _⟩ =>
      show win0_2.index ⟨32 * ((i 1 : Nat) / 1024) + 31, ht⟩ 0 * 8 ≤ (i 0 : Nat)
        ∧ (i 0 : Nat) < win0_2.index ⟨32 * ((i 1 : Nat) / 1024) + 31, ht⟩ 0 * 8 + 8
      rw [h0]; omega
    | ⟨1, _⟩ =>
      show win0_2.index ⟨32 * ((i 1 : Nat) / 1024) + 31, ht⟩ 1 * 1024 ≤ (i 1 : Nat)
        ∧ (i 1 : Nat) < win0_2.index ⟨32 * ((i 1 : Nat) / 1024) + 31, ht⟩ 1 * 1024 + 1024
      rw [h1]; show (32 * ((i 1 : Nat) / 1024) + 31) / 32 * 1024 ≤ (i 1 : Nat) ∧ (i 1 : Nat) < (32 * ((i 1 : Nat) / 1024) + 31) / 32 * 1024 + 1024; omega

end Cert.KernelIdeal.Scan

end
-- ==== Proof.KiPieces1.lean ====
/-
  Region 1: what each control case leaves in the running-minimum scratch, and what the last case stores into the
  output block, as terms of the point's two input blocks and of what the point before left in the scratch.
-/
import proofs.«139087_j75685913690395_1_alg».proof.Proof.KiBody1
import Idealize.ShloMosaic.Lib.Pipeline.Value
import Idealize.ShloMosaic.Lib.ValueIdx

set_option maxRecDepth 16384

noncomputable section

namespace Cert.KernelIdeal.ScanB

open Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

/-- The two-axis offsets of a whole-block store or load are zero on every axis. -/
private theorem hz2 : (![0, 0] : Fin 2 → Nat) = fun _ => 0 := funext fun a => by fin_cases a <;> rfl
/-- The three-axis ones likewise. -/
private theorem hz3 : (![0, 0, 0] : Fin 3 → Nat) = fun _ => 0 := funext fun a => by fin_cases a <;> rfl

/-- The first database tile resets the running minimum to +∞ and lowers it by the tile's minima. -/
theorem soutA1_eq (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : cond1_0 i) (hc1 : ¬cond1_1 i) (x0 : Vec F S8x1024x128 .f32) (x1 : Vec F S8x128x128 .f32) :
    sout1_A_0 c i arg2 harg2 arg3 harg3 arg4 harg4 arg5 harg5 hc0 hc1 x0 x1 = k1_pay2 x0 x1 (k1_pay1 (F := F)) := by
  unfold sout1_A_0
  rw [View.read_writes_eq_canon _ _ _ (scover1_A_0 c i arg2 harg2 arg3 harg3 arg4 harg4 arg5 harg5 hc0 hc1 x0 x1)]
  unfold kernelRun1_A
  dsimp only
  try sl_unfold_words
  rw [View.canon_cons_unit_zero (S := S8x1024) hz2, View.readCov_unit_zero (S := S8x1024) _ hz2]
  simp only [View.readAt_eq_ld, harg2.read_unread, harg3.read_unread, View.ld_unit_zero (S := S8x1024x128) hz3,
    View.ld_unit_zero (S := S8x128x128) hz3]

/-- A middle tile lowers what the scratch held by the tile's minima. -/
theorem soutB1_eq (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : ¬cond1_1 i) (x0 : Vec F S8x1024x128 .f32) (x1 : Vec F S8x128x128 .f32) (xs0 : Vec F S8x1024 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  try sl_unfold_words
  rw [View.canon_unit_zero hz2]
  simp only [View.readAt_eq_ld, harg2.read_unread, harg3.read_unread, harg5.read_unread,
    View.ld_unit_zero (S := S8x1024x128) hz3, View.ld_unit_zero (S := S8x128x128) hz3, View.ld_unit_zero (S := S8x1024) hz2]

/-- So does the last tile … -/
theorem soutC1_eq (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i) (x0 : Vec F S8x1024x128 .f32) (x1 : Vec F S8x128x128 .f32) (xs0 : Vec F S8x1024 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  try sl_unfold_words
  rw [View.canon_unit_zero hz2]
  simp only [View.readAt_eq_ld, harg2.read_unread, harg3.read_unread, harg5.read_unread,
    View.ld_unit_zero (S := S8x1024x128) hz3, View.ld_unit_zero (S := S8x128x128) hz3, View.ld_unit_zero (S := S8x1024) hz2]

/-- … which then copies the scratch into the output block. -/
theorem outC1_eq (c : Dev nD) (i : grid1.Coords) (arg2 : Memref sig .tc .vmem S8x1024x128 .f32) (harg2 : arg2.IsWhole) (arg3 : Memref sig .tc .vmem S8x128x128 .f32) (harg3 : arg3.IsWhole) (arg4 : Memref sig .tc .vmem S8x1024 .f32) (harg4 : arg4.IsWhole) (arg5 : Memref sig .tc .vmem S8x1024 .f32) (harg5 : arg5.IsWhole) (hc0 : ¬cond1_0 i) (hc1 : cond1_1 i) (x0 : Vec F S8x1024x128 .f32) (x1 : Vec F S8x128x128 .f32) (xs0 : Vec F S8x1024 .f32) :
    out1_C_2 c i arg2 harg2 arg3 harg3 arg4 harg4 arg5 harg5 hc0 hc1 x0 x1 xs0 = k1_pay2 x0 x1 xs0 := by
  unfold out1_C_2
  rw [View.read_writes_eq_canon _ _ _ (cover1_C_2 c i arg2 harg2 arg3 harg3 arg4 harg4 arg5 harg5 hc0 hc1 x0 x1 xs0)]
  unfold kernelRun1_C
  dsimp only
  try sl_unfold_words
  rw [View.canon_unit_zero hz2, View.readCov_unit_zero (S := S8x1024) _ hz2]
  simp only [View.readAt_eq_ld, harg2.read_unread, harg3.read_unread, harg5.read_unread,
    View.ld_unit_zero (S := S8x1024x128) hz3, View.ld_unit_zero (S := S8x128x128) hz3, View.ld_unit_zero (S := S8x1024) hz2]

end Cert.KernelIdeal.ScanB

end
-- ==== Proof.KiBlocks1.lean ====
/-
  Region 1: the two input windows' blocks as rows of the arrays the region finds. At point t the query block is rows
  1024·(t / 32) … of the query array, the database block rows 128·(t % 32) … of the database array.
-/
import proofs.«139087_j75685913690395_1_alg».proof.Proof.KiBody1
import Idealize.ShloMosaic.Lib.Pipeline.Value
import Idealize.ShloMosaic.Lib.ValueIdx

set_option maxRecDepth 16384

noncomputable section

namespace Cert.KernelIdeal.ScanB

open Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]
variable (V : (c : Dev nD) → (b : Ref sig .tc) → Buf (Elt F) ((c : Thread nD τ).loc b))

/-- The query row that lane `r` of point `t`'s query block holds. -/
def qRow1 (t : Fin cfg1.N) (r : Fin 1024) : Fin 4096 :=
  ⟨1024 * (t.val / 32) + r.val, by have h : t.val < 128 := lt_of_lt_of_eq t.isLt N_1; have := r.isLt; omega⟩

/-- The database row that lane `l` of point `t`'s database block holds. -/
def dbRow1 (t : Fin cfg1.N) (l : Fin 128) : Fin 4096 :=
  ⟨128 * (t.val % 32) + l.val, by have := l.isLt; omega⟩

/-- The query window's block index at point t: block t / 32 along the rows, block 0 along the other two axes. -/
theorem index1_0 : ∀ t : Fin cfg1.N, win1_0.index t 0 = 0 ∧ win1_0.index t 1 = t.val / 32 ∧ win1_0.index t 2 = 0 :=
  (by decide +kernel : ∀ t : Fin grid1.N, win1_0.index t 0 = 0 ∧ win1_0.index t 1 = t.val / 32 ∧ win1_0.index t 2 = 0)

/-- The database window's block index at point t: block t % 32 along the rows, block 0 along the other two axes. -/
theorem index1_1 : ∀ t : Fin cfg1.N, win1_1.index t 0 = 0 ∧ win1_1.index t 1 = t.val % 32 ∧ win1_1.index t 2 = 0 :=
  (by decide +kernel : ∀ t : Fin grid1.N, win1_1.index t 0 = 0 ∧ win1_1.index t 1 = t.val % 32 ∧ win1_1.index t 2 = 0)

theorem iblk1_q (c : Dev nD) (t : Fin cfg1.N) (n : Fin 8) (r : Fin 1024) (d : Fin 128) :
    (iblk1 V c 0 t : Vec F S8x1024x128 .f32) (ix3 n r d) = (V c main_arg1 : S8x4096x128.Idx → Elt F .f32) (ix3 n (qRow1 t r) d) := by
  obtain ⟨h0, h1, h2⟩ := index1_0 t
  unfold iblk1
  rw [View.read_apply]
  show V c main_arg1 _ = V c main_arg1 _
  refine congrArg _ (funext fun a => Fin.ext ?_)
  match a with
  | ⟨0, _⟩ => show win1_0.index t 0 * 8 + 1 * n.val = n.val; rw [h0]; omega
  | ⟨1, _⟩ => show win1_0.index t 1 * 1024 + 1 * r.val = 1024 * (t.val / 32) + r.val; rw [h1]; omega
  | ⟨2, _⟩ => show win1_0.index t 2 * 128 + 1 * d.val = d.val; rw [h2]; omega

theorem iblk1_db (c : Dev nD) (t : Fin cfg1.N) (n : Fin 8) (l : Fin 128) (d : Fin 128) :
    (iblk1 V c 1 t : Vec F S8x128x128 .f32) (ix3 n l d) = (V c main_arg0 : S8x4096x128.Idx → Elt F .f32) (ix3 n (dbRow1 t l) d) := by
  obtain ⟨h0, h1, h2⟩ := index1_1 t
  unfold iblk1
  rw [View.read_apply]
  show V c main_arg0 _ = V c main_arg0 _
  refine congrArg _ (funext fun a => Fin.ext ?_)
  match a with
  | ⟨0, _⟩ => show win1_1.index t 0 * 8 + 1 * n.val = n.val; rw [h0]; omega
  | ⟨1, _⟩ => show win1_1.index t 1 * 128 + 1 * l.val = 128 * (t.val % 32) + l.val; rw [h1]; omega
  | ⟨2, _⟩ => show win1_1.index t 2 * 128 + 1 * d.val = d.val; rw [h2]; omega

end Cert.KernelIdeal.ScanB

end
-- ==== Proof.TileMin1.lean ====
/-
  The second launch runs the same body as the first: its two payloads are the same terms, so they read at an index
  the same way.
-/
import proofs.«139087_j75685913690395_1_alg».proof.Proof.TileMin

noncomputable section

namespace Cert.Chamfer.Tile

open Idealize.ShloMosaic Idealize.ShloMosaic.ValueIdx

theorem pay1_apply1 (j : Cert.KernelIdeal.S8x1024.Idx) : Cert.KernelIdeal.Gen.k1_pay1 (F := Ideal) j = ⊤ :=
  pay1_apply j

theorem pay2_apply1 (x0 : Vec Ideal Cert.KernelIdeal.S8x1024x128 .f32) (x1 : Vec Ideal Cert.KernelIdeal.S8x128x128 .f32) (acc : Vec Ideal Cert.KernelIdeal.S8x1024 .f32) (n : Fin 8) (r : Fin 1024) :
    Cert.KernelIdeal.Gen.k1_pay2 (F := Ideal) x0 x1 acc (ix2 n r)
      = min (acc (ix2 n r)) (Finset.univ.fold min ⊤ fun q : Fin 128 => Cert.Chamfer.cost (fun d : Fin 128 => x0 (ix3 n r d)) (fun d : Fin 128 => x1 (ix3 n q d))) :=
  pay2_apply x0 x1 acc n r

end Cert.Chamfer.Tile

end
-- ==== Proof.KiValue1.lean ====
/-
  Region 1 at the ideal instance: after point t = 32·i + j the scratch holds, for query row 1024·i + r of batch entry
  n, the running minimum of the costs to the database tiles 0 … j; the last tile's point stores that — the minimum
  over the whole database — into the output block.
-/
import proofs.«139087_j75685913690395_1_alg».proof.Proof.KiPieces1
import proofs.«139087_j75685913690395_1_alg».proof.Proof.KiBlocks1
import proofs.«139087_j75685913690395_1_alg».proof.Proof.TileMin1
import proofs.«139087_j75685913690395_1_alg».proof.Proof.ScanSpec
import Idealize.ShloMosaic.Lib.ValueIdx

set_option maxRecDepth 16384

noncomputable section

namespace Cert.KernelIdeal.ScanB

open Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

open Cert.Chamfer Cert.Chamfer.Tiles

variable (V : (c : Dev nD) → (b : Ref sig .tc) → Buf (Elt Ideal) ((c : Thread nD τ).loc b))

/-- The minimum over point `t`'s database block of the costs from lane `r` of its query block is the minimum over
    database tile `t % 32` of the costs from query row `qRow1 t r`: the two blocks are rows of the two arrays. -/
theorem tile_at (c : Dev nD) (t : Fin cfg1.N) (n : Fin 8) (r : Fin 1024) :
    (Finset.univ.fold min (⊤ : EReal) fun q : Fin 128 =>
        cost (fun d : Fin 128 => (iblk1 V c 0 t : Vec Ideal S8x1024x128 .f32) (ix3 n r d))
          (fun d : Fin 128 => (iblk1 V c 1 t : Vec Ideal S8x128x128 .f32) (ix3 n q d)))
      = tileMin (tileCosts (V c main_arg1) (V c main_arg0) n (qRow1 t r)) (t.val % 32) := by
  unfold tileMin tileCosts
  refine congrArg (fun g => Finset.fold min (⊤ : EReal) g Finset.univ) (funext fun q => ?_)
  refine congrArg₂ cost (funext fun d => iblk1_q V c t n r d) (funext fun d => ?_)
  refine (iblk1_db V c t n q d).trans ?_
  refine congrArg (fun p : Fin 4096 => (V c main_arg0 : S8x4096x128.Idx → Elt Ideal .f32) (ix3 n p d)) (Fin.ext ?_)
  show 128 * (t.val % 32) + q.val = (128 * (t.val % 32) + q.val) % 4096
  have := q.isLt
  omega

/-- The scratch after the point at position `k`, by induction on `k`: the first tile of a query tile starts from +∞;
    a later tile lowers what the point before (same query tile, the database tile before) left. -/
theorem scratch_nat (c : Dev nD) : ∀ (k : ℕ) (hk : k < cfg1.N) (n : Fin 8) (r : Fin 1024),
    (outsAt1 V c k hk).2 (ix2 n r)
      = runMin (tileCosts (V c main_arg1) (V c main_arg0) n (qRow1 ⟨k, hk⟩ r)) (k % 32) := by
  intro k
  induction k using Nat.strong_induction_on with
  | _ k ih =>
    intro hk n r
    have hN : k < 128 := lt_of_lt_of_eq hk N_1
    by_cases h0 : k % 32 = 0
    · have h1 : ¬k % 32 = 31 := by omega
      rw [outsAt1_A V c ⟨k, hk⟩ h0 h1]
      dsimp only
      refine (congrFun (soutA1_eq (F := Ideal) c (grid1.coords ⟨k, hk⟩) (ms1_0 ⟨k, hk⟩) (hs1_0 ⟨k, hk⟩) (ms1_1 ⟨k, hk⟩) (hs1_1 ⟨k, hk⟩) (ms1_2 ⟨k, hk⟩) (hs1_2 ⟨k, hk⟩) scM1_0 (Memref.isWhole_whole _) ((hcond1_0 ⟨k, hk⟩).mpr h0) (fun h => h1 ((hcond1_1 ⟨k, hk⟩).mp h)) (iblk1 V c 0 ⟨k, hk⟩) (iblk1 V c 1 ⟨k, hk⟩)) (ix2 n r)).trans ?_
      refine (Cert.Chamfer.Tile.pay2_apply1 _ _ _ n r).trans ?_
      refine (congrArg₂ min (Cert.Chamfer.Tile.pay1_apply1 (ix2 n r)) (tile_at V c ⟨k, hk⟩ n r)).trans ?_
      rw [h0]
      rfl
    · have hk1 : k - 1 < cfg1.N := by omega
      have ihk := ih (k - 1) (by omega) hk1 n r
      have hq : qRow1 ⟨k - 1, hk1⟩ r = qRow1 ⟨k, hk⟩ r := Fin.ext (by
        show 1024 * ((k - 1) / 32) + r.val = 1024 * (k / 32) + r.val
        omega)
      rw [hq] at ihk
      obtain ⟨j, hj⟩ : ∃ j, k % 32 = j + 1 := ⟨k % 32 - 1, by omega⟩
      have hj' : (k - 1) % 32 = j := by omega
      by_cases h1 : k % 32 = 31
      · rw [outsAt1_C V c ⟨k, hk⟩ h0 h1]
        dsimp only
        refine (congrFun (soutC1_eq (F := Ideal) c (grid1.coords ⟨k, hk⟩) (ms1_0 ⟨k, hk⟩) (hs1_0 ⟨k, hk⟩) (ms1_1 ⟨k, hk⟩) (hs1_1 ⟨k, hk⟩) (ms1_2 ⟨k, hk⟩) (hs1_2 ⟨k, hk⟩) scM1_0 (Memref.isWhole_whole _) (fun h => h0 ((hcond1_0 ⟨k, hk⟩).mp h)) ((hcond1_1 ⟨k, hk⟩).mpr h1) (iblk1 V c 0 ⟨k, hk⟩) (iblk1 V c 1 ⟨k, hk⟩) (outsAt1 V c (k - 1) hk1).2) (ix2 n r)).trans ?_
        refine (Cert.Chamfer.Tile.pay2_apply1 _ _ _ n r).trans ?_
        refine (congrArg₂ min ihk (tile_at V c ⟨k, hk⟩ n r)).trans ?_
        rw [hj, hj']
        rfl
      · rw [outsAt1_B V c ⟨k, hk⟩ h0 h1]
        dsimp only
        refine (congrFun (soutB1_eq (F := Ideal) c (grid1.coords ⟨k, hk⟩) (ms1_0 ⟨k, hk⟩) (hs1_0 ⟨k, hk⟩) (ms1_1 ⟨k, hk⟩) (hs1_1 ⟨k, hk⟩) (ms1_2 ⟨k, hk⟩) (hs1_2 ⟨k, hk⟩) scM1_0 (Memref.isWhole_whole _) (fun h => h0 ((hcond1_0 ⟨k, hk⟩).mp h)) (fun h => h1 ((hcond1_1 ⟨k, hk⟩).mp h)) (iblk1 V c 0 ⟨k, hk⟩) (iblk1 V c 1 ⟨k, hk⟩) (outsAt1 V c (k - 1) hk1).2) (ix2 n r)).trans ?_
        refine (Cert.Chamfer.Tile.pay2_apply1 _ _ _ n r).trans ?_
        refine (congrArg₂ min ihk (tile_at V c ⟨k, hk⟩ n r)).trans ?_
        rw [hj, hj']
        rfl

/-- The scratch after point `t`, entry (n, r): the running minimum over the database tiles met so far. -/
theorem scratch_at1 (c : Dev nD) (t : Fin cfg1.N) (n : Fin 8) (r : Fin 1024) :
    (outsAt1 V c t.val t.isLt).2 (ix2 n r)
      = runMin (tileCosts (V c main_arg1) (V c main_arg0) n (qRow1 t r)) (t.val % 32) :=
  scratch_nat V c t.val t.isLt n r

/-- What the last tile's point stores into the output block: the minimum over the whole database. -/
theorem out_at1 (c : Dev nD) (t : Fin cfg1.N) (h : t.val % 32 = 31) (n : Fin 8) (r : Fin 1024) :
    (outsAt1 V c t.val t.isLt).1 (ix2 n r) = nearestAt (V c main_arg1) (V c main_arg0) n (qRow1 t r) := by
  have h0 : ¬t.val % 32 = 0 := by omega
  have e1 : (outsAt1 V c t.val t.isLt).1 = (outsAt1 V c t.val t.isLt).2 := by
    rw [outsAt1_C V c t h0 h]
    dsimp only
    exact (outC1_eq (F := Ideal) c (grid1.coords t) (ms1_0 t) (hs1_0 t) (ms1_1 t) (hs1_1 t) (ms1_2 t) (hs1_2 t) scM1_0 (Memref.isWhole_whole _) (fun h' => h0 ((hcond1_0 t).mp h')) ((hcond1_1 t).mpr h) (iblk1 V c 0 t) (iblk1 V c 1 t) (outsAt1 V c (t.val - 1) (Nat.lt_of_le_of_lt (Nat.sub_le _ _) t.isLt)).2).trans
      (soutC1_eq (F := Ideal) c (grid1.coords t) (ms1_0 t) (hs1_0 t) (ms1_1 t) (hs1_1 t) (ms1_2 t) (hs1_2 t) scM1_0 (Memref.isWhole_whole _) (fun h' => h0 ((hcond1_0 t).mp h')) ((hcond1_1 t).mpr h) (iblk1 V c 0 t) (iblk1 V c 1 t) (outsAt1 V c (t.val - 1) (Nat.lt_of_le_of_lt (Nat.sub_le _ _) t.isLt)).2).symm
  rw [e1, scratch_at1 V c t n r, h]
  exact (nearestAt_eq_runMin _ _ n _).symm

end Cert.KernelIdeal.ScanB

end
-- ==== Proof.KiArray1.lean ====
/-
  Region 1 at the ideal instance: the output array after the run. The four write-backs (one per query tile, at the last
  database tile's point) are the four row blocks of one array, the nearest-neighbour distances; they tile it.
-/
import proofs.«139087_j75685913690395_1_alg».proof.Proof.KiValue1
import Idealize.ShloMosaic.Lib.ValueIdx

set_option maxRecDepth 16384

noncomputable section

namespace Cert.KernelIdeal.ScanB

open Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

open Cert.Chamfer

variable (V : (c : Dev nD) → (b : Ref sig .tc) → Buf (Elt Ideal) ((c : Thread nD τ).loc b))

/-- The output window's block index at point t: block 0 along the batch entries, block t / 32 along the rows. -/
theorem index1_2 : ∀ t : Fin cfg1.N, win1_2.index t 0 = 0 ∧ win1_2.index t 1 = t.val / 32 :=
  (by decide +kernel : ∀ t : Fin grid1.N, win1_2.index t 0 = 0 ∧ win1_2.index t 1 = t.val / 32)

/-- What a point of the last database tile writes back is its row block of the nearest-neighbour array: entry (n, r)
    of the block is row 1024·(t / 32) + r of batch entry n. -/
theorem flushed0_2_eq (c : Dev nD) (t : Fin cfg1.N) (hf : (cfg1.win 2).flush t = true) :
    (dat1 V c).flushed 2 t
      = ((cfg1.win 2).blk t).view.read (Elt Ideal) (nearest (V c main_arg1) (V c main_arg0)) := by
  have h31 : t.val % 32 = 31 := (flush1_2 t).mp hf
  obtain ⟨h0, h1⟩ := index1_2 t
  funext y
  obtain ⟨n, r, rfl⟩ : ∃ (n : Fin 8) (r : Fin 1024), y = ix2 n r := ⟨y 0, y 1, eq_ix2 (n0 := 8) (n1 := 1024) y⟩
  show (cfg1.win 2).cut (grid1.coords t) ((dat1 V c).after 2 t) (ix2 n r) = _
  rw [after1_2, View.read_apply]
  have he : ((cfg1.win 2).blk t).view.emb (ix2 n r) = (ix2 n (qRow1 t r) : S8x4096.Idx) :=
    funext fun a => Fin.ext (by
      match a with
      | ⟨0, _⟩ => show win1_2.index t 0 * 8 + 1 * n.val = n.val; rw [h0]; omega
      | ⟨1, _⟩ => show win1_2.index t 1 * 1024 + 1 * r.val = 1024 * (t.val / 32) + r.val; rw [h1]; omega)
  rw [he, nearest_ix2]
  exact out_at1 V c t h31 n r

/-- The output array ends holding the nearest-neighbour distances from the query array's points to the database array's. -/
theorem final1 (c : Dev nD) :
    ((dat1 V c).arrAt 2 cfg1.N : S8x4096.Idx → EReal) = nearest (V c main_arg1) (V c main_arg0) :=
  (dat1 V c).arrAt_eq_of_cover 2 (nearest (V c main_arg1) (V c main_arg0)) (flushed0_2_eq V c) fun i => by
    have hi0 : (i 0 : Nat) < 8 := (i 0).isLt
    have hi1 : (i 1 : Nat) < 4096 := (i 1).isLt
    have hN : cfg1.N = 128 := N_1
    have ht : 32 * ((i 1 : Nat) / 1024) + 31 < cfg1.N := by rw [hN]; omega
    obtain ⟨h0, h1⟩ := index1_2 ⟨32 * ((i 1 : Nat) / 1024) + 31, ht⟩
    refine ⟨⟨32 * ((i 1 : Nat) / 1024) + 31, ht⟩, (flush1_2 _).mpr (by show (32 * ((i 1 : Nat) / 1024) + 31) % 32 = 31; omega), ?_⟩
    show i ∈ ((View.whole main_v1).slice (win1_2.rect ⟨32 * ((i 1 : Nat) / 1024) + 31, ht⟩)).set
    rw [View.set_slice_whole, Rect.mem_set_unit]
    intro a
    match a with
    | ⟨0, _⟩ =>
      show win1_2.index ⟨32 * ((i 1 : Nat) / 1024) + 31, ht⟩ 0 * 8 ≤ (i 0 : Nat)
        ∧ (i 0 : Nat) < win1_2.index ⟨32 * ((i 1 : Nat) / 1024) + 31, ht⟩ 0 * 8 + 8
      rw [h0]; omega
    | ⟨1, _⟩ =>
      show win1_2.index ⟨32 * ((i 1 : Nat) / 1024) + 31, ht⟩ 1 * 1024 ≤ (i 1 : Nat)
        ∧ (i 1 : Nat) < win1_2.index ⟨32 * ((i 1 : Nat) / 1024) + 31, ht⟩ 1 * 1024 + 1024
      rw [h1]; show (32 * ((i 1 : Nat) / 1024) + 31) / 32 * 1024 ≤ (i 1 : Nat) ∧ (i 1 : Nat) < (32 * ((i 1 : Nat) / 1024) + 31) / 32 * 1024 + 1024; omega

end Cert.KernelIdeal.ScanB

end
-- ==== Proof.KiResult.lean ====
/-
  The idealized kernel's result. After the two scans the host stretch takes the mean of each output array over its
  4096 entries and then the mean of the two means; with the two output arrays named (the nearest-neighbour distances
  in both directions) the returned array is that expression of the two argument arrays.
-/
import proofs.«139087_j75685913690395_1_alg».proof.Proof.KiLaunch
import proofs.«139087_j75685913690395_1_alg».proof.Proof.KiArray0
import proofs.«139087_j75685913690395_1_alg».proof.Proof.KiArray1
import Idealize.ShloMosaic.Lib.StableHlo.Run

set_option maxRecDepth 16384

noncomputable section

namespace Cert.KernelIdeal.Scan

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

open Cert.Chamfer

/-- The host stretch as one function of the two scans' outputs: each summed over its points and divided by 4096, the
    two quotients added and divided by 2 (the constants as the program prints them). -/
def meanOfMeans (a b : (⟨S8x4096, .f32⟩ : BufTy).Contents (Elt Ideal)) : (⟨S8, .f32⟩ : BufTy).Contents (Elt Ideal) :=
  Host.divf (F := Ideal)
    (addf (F := Ideal)
      (Host.divf (F := Ideal) (Host.reduceAdd (F := Ideal) a (constant (F := Ideal) S_ .f32 0x00000000#32) reducesTo_S8x4096_S8_d1 h_S_)
        (broadcastInDim S8 ![] bcast_S_S8 (constant (F := Ideal) S_ .f32 0x45800000#32)))
      (Host.divf (F := Ideal) (Host.reduceAdd (F := Ideal) b (constant (F := Ideal) S_ .f32 0x00000000#32) reducesTo_S8x4096_S8_d1 h_S_)
        (broadcastInDim S8 ![] bcast_S_S8 (constant (F := Ideal) S_ .f32 0x45800000#32))))
    (broadcastInDim S8 ![] bcast_S_S8 (constant (F := Ideal) S_ .f32 0x40000000#32))

variable (m : (ℓ : Loc nD τ sig) → Buf (Elt Ideal) ℓ) (ρ : Dev nD → PrngReg)

/-- The returned buffer after the host stretch, from the two output arrays as region 1 leaves them. -/
theorem W5_main_v10 (c : Dev nD) :
    W5 m ρ c (Proc.devRef .tc main_v10)
      = meanOfMeans (W4 m ρ c (Proc.devRef .tc main_v0)) (W4 m ρ c (Proc.devRef .tc main_v1)) := by
  show StableHlo.after hostOps2 (W4 m ρ c) (Proc.devRef .tc main_v10) = _
  after_results
  rfl

/-- Region 1 finds the argument arrays as launched (region 0 only reads them). -/
theorem V2_main_arg0 (c : Dev nD) : V2 m ρ c main_arg0 = m ((c : Thread nD τ).loc main_arg0) :=
  (W2_arr m ρ c 0).trans (((dat0 (V0 m ρ) c).arrAt_in 0 rfl _).trans (A_eq0 (V0 m ρ) c 0))
theorem V2_main_arg1 (c : Dev nD) : V2 m ρ c main_arg1 = m ((c : Thread nD τ).loc main_arg1) :=
  (W2_arr m ρ c 1).trans (((dat0 (V0 m ρ) c).arrAt_in 1 rfl _).trans (A_eq0 (V0 m ρ) c 1))

/-- The first scan's output array at the end: the distances from the first argument's points to the second's. -/
theorem W4_main_v0 (c : Dev nD) :
    (W4 m ρ c (Proc.devRef .tc main_v0) : S8x4096.Idx → EReal)
      = nearest (m ((c : Thread nD τ).loc main_arg0)) (m ((c : Thread nD τ).loc main_arg1)) :=
  ((W4_of_ne m ρ c main_v0 (by decide)).trans (W2_arr m ρ c 2)).trans (final0 (V0 m ρ) c)

/-- The second scan's output array: the distances from the second argument's points to the first's. -/
theorem W4_main_v1 (c : Dev nD) :
    (W4 m ρ c (Proc.devRef .tc main_v1) : S8x4096.Idx → EReal)
      = nearest (m ((c : Thread nD τ).loc main_arg1)) (m ((c : Thread nD τ).loc main_arg0)) := by
  refine ((W4_arr m ρ c 2).trans (Cert.KernelIdeal.ScanB.final1 (V2 m ρ) c)).trans ?_
  rw [V2_main_arg0, V2_main_arg1]

/-- The kernel's run with its result named. -/
theorem run_result : θ_run defs (onTc (τ := τ) (main (F := Ideal))) ⟨m, fun _ => 0, ρ⟩ (fun r => ∀ c : Dev nD,
      r.2.mem ((c.tc : Thread nD τ).loc main_v10)
        = meanOfMeans (nearest (m ((c : Thread nD τ).loc main_arg0)) (m ((c : Thread nD τ).loc main_arg1)))
            (nearest (m ((c : Thread nD τ).loc main_arg1)) (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v10 (by decide))).trans ((W5_main_v10 m ρ c).trans (by rw [W4_main_v0, W4_main_v1])),
     (h c _ (mem_uc main_arg0 (by decide))).trans (W5_main_arg0 m ρ c),
     (h c _ (mem_uc main_arg1 (by decide))).trans (W5_main_arg1 m ρ c)⟩) (run_all m ρ)

end Cert.KernelIdeal.Scan

end
-- ==== Proof.RefNearest.lean ====
/-
  The reference side. The reference program builds the 8 x 4096 x 4096 matrix of pair costs and takes its minimum
  along each of the two point axes. Here one entry of that matrix is shown to be the specification's cost of the
  pair of points, and each of the two minima is shown to be the specification's nearest-point distance: along the
  last axis for the points of the first cloud, along the middle axis for the points of the second.
-/
import proofs.«139087_j75685913690395_1_alg».proof.Proof.Spec
import proofs.«139087_j75685913690395_1_alg».proof.Proof.Gen.ReferenceIdeal.Read
import Idealize.ShloMosaic.PureOps.Reduce
import Idealize.ShloMosaic.PureOps.Ideal
import Idealize.ShloMosaic.PureOps.Ideal.Laws
import Idealize.ShloMosaic.Lib.ValueIdx

noncomputable section

open scoped BigOperators

namespace Cert.Chamfer.Ref

open Cert.ReferenceIdeal Cert.ReferenceIdeal.Gen Cert.ReferenceIdeal.Read Idealize.ShloMosaic Idealize.ShloMosaic.ValueIdx

/-- The reference's argument arrays: a batch of point clouds with extended-real entries. -/
abbrev Arg : Type := (⟨S8x4096x128, .f32⟩ : BufTy).Contents (Elt Ideal)

/-! ## The index maps under one entry of the cost matrix -/

/-- Under entry (n, p, k), the squared norm of the first cloud's point is summed over the coordinates of point p. -/
theorem idx_sq_left (n : Fin 8) (p k : Fin 4096) (d : Fin 128) :
    idx_main_v1 (idx_main_v5 (idx_main_v7 (ix3 n p k))) d = ix3 n p d :=
  funext fun a => match a with | ⟨0, _⟩ => rfl | ⟨1, _⟩ => rfl | ⟨2, _⟩ => rfl

/-- Under entry (n, p, k), the squared norm of the second cloud's point is summed over the coordinates of point k. -/
theorem idx_sq_right (n : Fin 8) (p k : Fin 4096) (d : Fin 128) :
    idx_main_v3 (idx_main_v6 (idx_main_v8 (ix3 n p k))) d = ix3 n k d :=
  funext fun a => match a with | ⟨0, _⟩ => rfl | ⟨1, _⟩ => rfl | ⟨2, _⟩ => rfl

/-- Under entry (n, p, k), the inner product reads the first cloud at point p … -/
theorem idx_dot_left (n : Fin 8) (p k : Fin 4096) (d : Fin 128) :
    lidx_main_v4 (ix3 n p k) d = ix3 n p d :=
  funext fun a => match a with | ⟨0, _⟩ => rfl | ⟨1, _⟩ => rfl | ⟨2, _⟩ => rfl

/-- … and the second cloud at point k. -/
theorem idx_dot_right (n : Fin 8) (p k : Fin 4096) (d : Fin 128) :
    ridx_main_v4 (ix3 n p k) d = ix3 n k d :=
  funext fun a => match a with | ⟨0, _⟩ => rfl | ⟨1, _⟩ => rfl | ⟨2, _⟩ => rfl

/-! ## One entry of the cost matrix -/

/-- Entry (n, p, k) of the cost matrix is the cost of point p of the first cloud and point k of the second, in
    batch entry n: the two squared norms, less twice the inner product, clamped at zero, under the square root. -/
theorem cost_entry (x y : Arg) (n : Fin 8) (p k : Fin 4096) :
    val_main_v15 (F := Ideal) x y (ix3 n p k) = cost (pt x n p) (pt y n k) := by
  rw [val_main_v15_apply, val_main_v14_apply, val_main_v13_apply, val_main_cst_2_apply, val_main_v12_apply,
    val_main_v9_apply, val_main_v7_apply, val_main_v5_apply, val_main_v1_apply, val_main_cst_apply,
    val_main_v8_apply, val_main_v6_apply, val_main_v3_apply, val_main_cst_0_apply, val_main_v11_apply,
    val_main_v10_apply, val_main_cst_1_apply, val_main_v4_apply]
  simp only [val_main_v0_apply, val_main_v2_apply, idx_sq_left, idx_sq_right, idx_dot_left, idx_dot_right,
    Ideal.hostUnary_sqrt_def, Ideal.maximumf_def, Ideal.subf_def, Ideal.addf_def, Ideal.mulf_def, Ideal.ofBits_def,
    Ideal.ofBits_zero_f32, zero_add]
  rfl

/-! ## The two minima -/

/-- The initial value of both minima is +∞. -/
theorem init_top : Ideal.ofBits .f32 0x7F800000#32 = (⊤ : EReal) := by simp [Ideal.ofBits, Ideal.ieee]

/-- The source index over (n, p) with k inserted on the last axis is (n, p, k). -/
theorem lift_last (h : S8x4096x4096.Reduces [2] S8x4096) (n : Fin 8) (p k : Fin 4096) :
    h.lift (ix2 n p) k = ix3 n p k :=
  funext fun a => Fin.ext (by match a with | ⟨0, _⟩ => rfl | ⟨1, _⟩ => rfl | ⟨2, _⟩ => rfl)

/-- The source index over (n, k) with p inserted on the middle axis is (n, p, k). -/
theorem lift_mid (h : S8x4096x4096.Reduces [1] S8x4096) (n : Fin 8) (k p : Fin 4096) :
    h.lift (ix2 n k) p = ix3 n p k :=
  funext fun a => Fin.ext (by match a with | ⟨0, _⟩ => rfl | ⟨1, _⟩ => rfl | ⟨2, _⟩ => rfl)

/-- The minimum of the cost matrix along its last axis: for each point of the first cloud, the least cost to a
    point of the second. -/
theorem rows_eq (x y : Arg) : val_main_v16 (F := Ideal) x y = nearest x y := by
  funext i
  obtain ⟨n, p, rfl⟩ : ∃ (n : Fin 8) (p : Fin 4096), i = ix2 n p := ⟨i 0, i 1, eq_ix2 i⟩
  have h : S8x4096x4096.Reduces [2] S8x4096 := by decide
  unfold val_main_v16
  refine (Host.reduce_eq_fold_single FloatOps.minimumf _ _ reducesTo_S8x4096x4096_S8x4096_d2 h h_S_ (ix2 n p)).trans ?_
  rw [val_main_cst_3_apply, Ideal.ofBits_def, init_top, nearest_ix2]
  unfold nearestAt
  refine congrArg (fun f : Fin 4096 → EReal => Finset.univ.fold min (⊤ : EReal) f) (funext fun (k : Fin 4096) => ?_)
  exact (congrArg (val_main_v15 (F := Ideal) x y) (lift_last h n p k)).trans (cost_entry x y n p k)

/-- The minimum of the cost matrix along its middle axis: for each point of the second cloud, the least cost to a
    point of the first; the cost of a pair does not depend on its order. -/
theorem cols_eq (x y : Arg) : val_main_v20 (F := Ideal) x y = nearest y x := by
  funext i
  obtain ⟨n, k, rfl⟩ : ∃ (n : Fin 8) (k : Fin 4096), i = ix2 n k := ⟨i 0, i 1, eq_ix2 i⟩
  have h : S8x4096x4096.Reduces [1] S8x4096 := by decide
  unfold val_main_v20
  refine (Host.reduce_eq_fold_single FloatOps.minimumf _ _ reducesTo_S8x4096x4096_S8x4096_d1 h h_S_ (ix2 n k)).trans ?_
  rw [val_main_cst_6_apply, Ideal.ofBits_def, init_top, nearest_ix2]
  unfold nearestAt
  refine congrArg (fun f : Fin 4096 → EReal => Finset.univ.fold min (⊤ : EReal) f) (funext fun (p : Fin 4096) => ?_)
  exact (congrArg (val_main_v15 (F := Ideal) x y) (lift_mid h n k p)).trans
    ((cost_entry x y n p k).trans (cost_comm (pt x n p) (pt y n k)))

end Cert.Chamfer.Ref

end
-- ==== Proof.lean ====
/-
  The certificate of the Chamfer-distance kernel against its jnp reference.

  The kernel computes, with one blocked scan per direction, the nearest-neighbour distance of every point of one cloud to
  the other cloud (a running minimum over 32 database tiles of the clamped distances √(max(|a|² + |b|² − 2⟨a,b⟩, 0))),
  then on the host the mean of each direction's distances and the mean of the two means. The reference builds the whole
  8×4096×4096 cost matrix and reduces it by minimum along each of its two point axes. At the ideal instance both are
  `meanOfMeans (nearest x y) (nearest y x)`: a minimum over 4096 candidates is the running minimum over 32 tiles of 128
  (the minimum of extended reals is associative, commutative and idempotent), and the cost of a pair does not depend on
  the order of the pair (sums and products commute). No finiteness is used: the law needs none.

  The three frames: each kernel program runs as two pipelined regions and a host stretch, the regions' bodies carrying
  the running-minimum scratch between grid points; the reference is a straight line of host operations.
  The ideal pass rewrote nothing, so the idealization is the program's own text read at the ideal instance.
-/
import proofs.«139087_j75685913690395_1_alg».proof.Defs
import proofs.«139087_j75685913690395_1_alg».proof.Proof.Gen.Kernel
import proofs.«139087_j75685913690395_1_alg».proof.Proof.Gen.KernelIdeal
import proofs.«139087_j75685913690395_1_alg».proof.Proof.Gen.ReferenceIdeal
import proofs.«139087_j75685913690395_1_alg».proof.Proof.Gen.Pre_finite_inputs
import proofs.«139087_j75685913690395_1_alg».proof.Proof.Gen.ReferenceIdeal.Run
import proofs.«139087_j75685913690395_1_alg».proof.Proof.Gen.ReferenceIdeal.Read
import proofs.«139087_j75685913690395_1_alg».proof.Proof.KbLaunch
import proofs.«139087_j75685913690395_1_alg».proof.Proof.KiResult
import proofs.«139087_j75685913690395_1_alg».proof.Proof.RefNearest
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Scan.frame (F := Bits) m ρ

theorem frame_ideal : @Cert.frame_KernelIdeal Cert.KernelIdeal.Gen.facts Cert.Pre_finite_inputs.Gen.facts :=
  fun m ρ _ => Cert.KernelIdeal.Scan.frame (F := Ideal) m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

open Cert.ReferenceIdeal.Read in
/-- The reference's result term is the same expression of the two nearest-neighbour arrays: its two minimum-reductions
    of the cost matrix are `nearest x y` (along the second cloud) and `nearest y x` (along the first), and the
    operations after them are the kernel's host stretch. -/
theorem reference_result (x y : Cert.Chamfer.Ref.Arg) :
    val_main_v26 (F := Ideal) x y
      = Cert.KernelIdeal.Scan.meanOfMeans (Cert.Chamfer.nearest x y) (Cert.Chamfer.nearest y x) := by
  unfold val_main_v26 val_main_v24 val_main_v19 val_main_v23 val_main_v17 val_main_v21
  rw [Cert.Chamfer.Ref.rows_eq, Cert.Chamfer.Ref.cols_eq]
  rfl

theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Scan.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  exact reference_result _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
